-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S1x4096x64 : Shape := ⟨3, ![1, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S1x4096x64 : S_.BroadcastsInDim S1x4096x64 (![] : Fin 0 → Fin S1x4096x64.rank)
  reducesTo_S1x4096x64_S_d0_1_2 : S1x4096x64.ReducesTo [0, 1, 2] S_

variable [Facts]

def fn {F : FTy → Type} [FloatOps F] (main_arg0 : FVec F S4x4096x64 .f32) (main_arg1 : FVec F S1x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S1x4096x64 .f32 := Host.absf main_arg1
  let main_cst_0 : FVec F S_ .f32 := constant S_ .f32 0x7F800000#32
  let main_v5 : FVec F S1x4096x64 .f32 := broadcastInDim S1x4096x64 ![] bcast_S_S1x4096x64 main_cst_0
  let main_v6 : IVec S1x4096x64 1 := cmpf .olt main_v4 main_v5
  let main_c_1 : IVec S_ 1 := constantI S_ 1 1#1
  let main_v7 : IVec S_ 1 := (fun x v => Host.reduce IntOp.andi x v reducesTo_S1x4096x64_S_d0_1_2 h_S_) main_v6 main_c_1
  let main_v8 : IVec S_ 1 := andi main_v3 main_v7
  main_v8
-- ==== Kernel.lean ====
abbrev S4x4096x64 : Shape := ⟨3, ![4, 4096, 64]⟩
abbrev S1x4096x64 : Shape := ⟨3, ![1, 4096, 64]⟩
abbrev S1x1024x64 : Shape := ⟨3, ![1, 1024, 64]⟩
abbrev S1024x64 : Shape := ⟨2, ![1024, 64]⟩
abbrev S1024 : Shape := ⟨1, ![1024]⟩
abbrev S1024x1 : Shape := ⟨2, ![1024, 1]⟩
abbrev S4x4096x4096 : Shape := ⟨3, ![4, 4096, 4096]⟩
abbrev S1x2048x64 : Shape := ⟨3, ![1, 2048, 64]⟩
abbrev S1x1024x2048 : Shape := ⟨3, ![1, 1024, 2048]⟩
abbrev S2048x64 : Shape := ⟨2, ![2048, 64]⟩
abbrev S64x2048 : Shape := ⟨2, ![64, 2048]⟩
abbrev S1024x2048 : Shape := ⟨2, ![1024, 2048]⟩

abbrev nBuf : Space → Nat
  | .hbm => 4
  | .vmem => 12
  | .smem => 0
  | _ => 0

abbrev bufTy : (tb : Table) → Fin (tcTables nBuf tb) → BufTy
  | .hbm, ⟨0, _⟩ => ⟨S4x4096x64, .f32⟩
  | .hbm, ⟨1, _⟩ => ⟨S1x4096x64, .f32⟩
  | .hbm, ⟨2, _⟩ => ⟨S4x4096x64, .bf16⟩
  | .hbm, ⟨3, _⟩ => ⟨S4x4096x4096, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x1024x2048, .f32⟩
  | .local _ .vmem, ⟨11, _⟩ => ⟨S1x1024x2048, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 4, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x64_S1024 : S1024x64.Reduces [1] S1024
  shapeCasts_S1024_S1024x1 : S1024.ShapeCasts S1024x1
  broadcasts_S1024x1_S1024x64 : S1024x1.Broadcasts S1024x64
  bitsLt_bf16_f32 : FTy.bits .bf16 < FTy.bits .f32
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  dot_S1024x64_S64x2048_S1024x2048_1_0_0_1_n_n_wf : DotDims.WF S1024x64 S64x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x4096x64.size a
  hwx0_0 : ∀ i : grid0.Coords, EltTy.bits .f32 = 32 ∨ (Rect.block (s := S4x4096x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S1x4096x64.size a
  hwx0_1 : ∀ i : grid0.Coords, EltTy.bits .f32 = 32 ∨ (Rect.block (s := S1x4096x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S4x4096x64.size a
  hwx0_2 : ∀ i : grid0.Coords, EltTy.bits .bf16 = 32 ∨ (Rect.block (s := S4x4096x64) S1x1024x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S4x4096x64.size a
  hwx1_1 : ∀ i : grid1.Coords, EltTy.bits .bf16 = 32 ∨ (Rect.block (s := S4x4096x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x2048.size a ≤ S4x4096x4096.size a
  hwx1_2 : ∀ i : grid1.Coords, EltTy.bits .f32 = 32 ∨ (Rect.block (s := S4x4096x4096) S1x1024x2048.size (cc1_transform_2 i) (hinb1_2 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x64 : Shape := ⟨3, ![4, 4096, 64]⟩
abbrev S1x4096x64 : Shape := ⟨3, ![1, 4096, 64]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S1x4096x64, .f32⟩
  | .hbm, ⟨2, _⟩ => ⟨S4x4096x64, .f32⟩
  | .hbm, ⟨3, _⟩ => ⟨S4x4096x64, .f32⟩
  | .hbm, ⟨4, _⟩ => ⟨S4x4096x64, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x64, .f32⟩
  | .hbm, ⟨13, _⟩ => ⟨S4x4096x64, .f32⟩
  | .hbm, ⟨14, _⟩ => ⟨S4x4096x4096, .f32⟩
  | .hbm, ⟨15, _⟩ => ⟨S_, .f32⟩
  | .hbm, ⟨16, _⟩ => ⟨S4x4096x4096, .f32⟩
  | .hbm, ⟨17, _⟩ => ⟨S4x4096x4096, .i1⟩
  | .hbm, ⟨18, _⟩ => ⟨S_, .f32⟩
  | .hbm, ⟨19, _⟩ => ⟨S4x4096x4096, .f32⟩
  | .hbm, ⟨20, _⟩ => ⟨S4x4096x4096, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_call0_v0 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S1x4096x64_S4x4096x64_0_1_2 : S1x4096x64.BroadcastsInDim S4x4096x64 (![0, 1, 2] : Fin 3 → Fin S4x4096x64.rank)
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x64_0_1_2 : S4x4096x1.BroadcastsInDim S4x4096x64 (![0, 1, 2] : Fin 3 → Fin S4x4096x64.rank)
  bcast_S_S4x4096x4096 : S_.BroadcastsInDim S4x4096x4096 (![] : Fin 0 → Fin S4x4096x4096.rank)
  dot_S4x4096x64_S4x4096x64_S4x4096x4096_2_2_1_1_0_0_wf : DotDims.WF S4x4096x64 S4x4096x64 S4x4096x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf

class Facts : Prop extends Facts₀ where

variable [Facts]
-- ==== Proof.KernelNorm.lean ====
/-
  The normalising region (the first pallas_call) of the kernel, at the contents `V` its core's buffers hold
  when the region is entered.

  At grid point `t = (b, n)` the body reads the block of rows `1024 n … 1024 n + 1023` of batch `b` of `x`
  and the same rows of `w` (whose one batch every `b` shares), and stores ONE value into the whole output
  block: the rows' products `x · w` divided by `max (sqrt (Σ_f (x · w)²), ε)`, rounded to bf16 — the pure term
  `k0_pay1` of the two loaded blocks. So what the output window's buffer holds after the body is a function of
  the two input blocks alone (`normOut`); the input windows' buffers are left as found. The body's triple is
  run symbolically; the region's proof data (`normDat`) names those contents, and the body obligation at a
  generic point follows.
-/
import proofs.«129614_j39204461478656_1_alg».proof.Proof.Gen.Kernel.Launch
import proofs.«129614_j39204461478656_1_alg».proof.Proof.Gen.Kernel.Skeleton
import proofs.«129614_j39204461478656_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def normBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place: the window is uncut and never idle, and where it is not
    fetched its index has not moved. -/
theorem normBefore0_of {c : Dev nD} (dat : Dat τ (Elt F) Unit ℕ (UR sig nD τ) ℕ cfg0 c) (hA : dat.A 0 = V c (Pipeline.arrRef spec0 0))
    (hafter : ∀ t, dat.after 0 t = normBlk V c 0 t) (t : Fin cfg0.N) (d) : dat.before 0 t d = normBlk V c 0 t :=
  (dat.before_in_eq_fetched 0 rfl (fun _ => rfl) (fun _ _ _ => rfl) (fun t => by rw [hafter]; unfold Dat.blockOf normBlk; rw [hA]; try rfl) t d).trans
    (by unfold Dat.fetched Dat.blockOf normBlk; rw [hA]; try rfl)

theorem normBefore1_of {c : Dev nD} (dat : Dat τ (Elt F) Unit ℕ (UR sig nD τ) ℕ cfg0 c) (hA : dat.A 1 = V c (Pipeline.arrRef spec0 1))
    (hafter : ∀ t, dat.after 1 t = normBlk V c 1 t) (t : Fin cfg0.N) (d) : dat.before 1 t d = normBlk V c 1 t :=
  (dat.before_in_eq_fetched 1 rfl (fun _ => rfl) (fun _ _ _ => rfl) (fun t => by rw [hafter]; unfold Dat.blockOf normBlk; rw [hA]; try rfl) t d).trans
    (by unfold Dat.fetched Dat.blockOf normBlk; rw [hA]; try rfl)

/-! ## What the body leaves in the output window's buffer -/

/-- The whole block `[1, 1024, 64]`: the one rectangle the body loads and stores through. -/
abbrev normRect : Rect S1x1024x64 := Rect.unit (s := S1x1024x64) ![0, 0, 0] S1x1024x64.size inb_S1x1024x64_S1x1024x64_0_0_0

/-- The output buffer after the body, from the two input blocks: its one store as a list of pieces. -/
def normOut (x0 : Vec F S1x1024x64 .f32) (x1 : Vec F S1x1024x64 .f32) : Vec F S1x1024x64 .bf16 :=
  View.canon [⟨normRect, k0_pay1 (View.ld x0 normRect) (View.ld x1 normRect)⟩]

/-- The one store covers the buffer. -/
theorem normCover (p0 : Vec F S1x1024x64 .bf16) (y : S1x1024x64.Idx) :
    ∃ pc ∈ ([⟨normRect, p0⟩] : List (View.Piece (Elt F) S1x1024x64 .bf16)), y ∈ pc.1.set :=
  View.cover_of_tiled [⟨normRect, p0⟩] S1x1024x64.size (by rfl) y

end

/-! ## The body's triple -/

set_option maxHeartbeats 1000000 in
/-- The body on whole staging memrefs, the inputs' at contents `x0`, `x1` and the output's at anything, runs to the
    continuation holding the inputs' as they were and the output's at `normOut x0 x1`. (The body also loads the
    output buffer before storing into it; the loaded value is not used.) -/
theorem normKernel (c : Dev nD) (E : Set ℕ) (i : grid0.Coords)
    (arg2 : Memref sig .tc .vmem S1x1024x64 .f32) (harg2 : arg2.IsWhole) (arg3 : Memref sig .tc .vmem S1x1024x64 .f32) (harg3 : arg3.IsWhole)
    (arg4 : Memref sig .tc .vmem S1x1024x64 .bf16) (harg4 : arg4.IsWhole)
    (x0 : Vec F S1x1024x64 .f32) (x1 : Vec F S1x1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (normOut x0 x1)) -∗ K ⟨⟩))
      ⊢ wp frame (wpE (defs₀ (F := F)) Variants.none c none) E (cc0__norm_kernel i arg2 harg2 arg3 harg3 arg4 harg4) K := by
  simp only [cc0__norm_kernel_eq_skeleton]; unfold cc0__norm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (normCover _)

section
variable (V : (c : Dev nD) → (b : Ref sig .tc) → Buf (Elt F) ((c : Thread nD τ).loc b))

/-! ## The region's proof data -/

/-- The proof data of the region on core `c`: the arrays as the region finds them; after the body at point `t` each
    input's buffer at its block and the output's at `normOut` of the two input blocks; the invariant the scoped
    buffers no window stages and the generator register, untouched; nothing owed; full shares. -/
def normDat (c : Dev nD) : Dat τ (Elt F) Unit ℕ (UR sig nD τ) ℕ cfg0 c where
  A w := V c (Pipeline.arrRef spec0 w)
  after w t := match w with
    | ⟨0, _⟩ => normBlk V c 0 t
    | ⟨1, _⟩ => normBlk V c 1 t
    | ⟨2, _⟩ => normOut (normBlk V c 0 t) (normBlk V c 1 t)
  Φ _ := Pipeline.ΦA spec0 c
  q _ := fullShare
  owed _ := 0

theorem normDat_A (c : Dev nD) (w : Fin cfg0.W) : (normDat V c).A w = V c (Pipeline.arrRef spec0 w) := by
  dsimp only [normDat]

theorem normAfter0 (c : Dev nD) (t : Fin cfg0.N) : (normDat V c).after 0 t = normBlk V c 0 t := by dsimp only [normDat]
theorem normAfter1 (c : Dev nD) (t : Fin cfg0.N) : (normDat V c).after 1 t = normBlk V c 1 t := by dsimp only [normDat]
theorem normAfter2 (c : Dev nD) (t : Fin cfg0.N) :
    (normDat V c).after 2 t = normOut (normBlk V c 0 t) (normBlk V c 1 t) := by dsimp only [normDat]

theorem normBefore0 (c : Dev nD) (t : Fin cfg0.N) (d) : (normDat V c).before 0 t d = normBlk V c 0 t :=
  normBefore0_of V (normDat V c) (normDat_A V c 0) (normAfter0 V c) t d
theorem normBefore1 (c : Dev nD) (t : Fin cfg0.N) (d) : (normDat V c).before 1 t d = normBlk V c 1 t :=
  normBefore1_of V (normDat V c) (normDat_A V c 1) (normAfter1 V c) t d

/-! ## The body obligation, at a generic point -/

/-- What the body is called with at point `t`, the windows one by one, -/
def normPre (c : Dev nD) (t : Fin cfg0.N) : sProp 𝕄 :=
  iprop((normDat V c).Φ t.castSucc ∗ (normDat V c).owesAt () t.castSucc
    ∗ (∃ d, owns (c : Thread nD τ) (st0_0 t) fullShare ((normDat V c).before 0 t d))
    ∗ (∃ d, owns (c : Thread nD τ) (st0_1 t) fullShare ((normDat V c).before 1 t d))
    ∗ (∃ d, owns (c : Thread nD τ) (st0_2 t) fullShare ((normDat V c).before 2 t d)))

/-- and what it returns. -/
def normPost (c : Dev nD) (t : Fin cfg0.N) : sProp 𝕄 :=
  iprop((normDat V c).Φ t.succ ∗ (normDat V c).owesAt () t.succ
    ∗ owns (c : Thread nD τ) (st0_0 t) fullShare ((normDat V c).after 0 t)
    ∗ owns (c : Thread nD τ) (st0_1 t) fullShare ((normDat V c).after 1 t)
    ∗ owns (c : Thread nD τ) (st0_2 t) fullShare ((normDat V c).after 2 t))

/-- The body at any point: the inputs' memrefs hold their blocks, so `normKernel` applies; the invariant and the
    core's dues pass through unread. -/
theorem normBody (c : Dev nD) (t : Fin cfg0.N) :
    normPre V c t ⊢ wp frame (wpE (defs₀ (F := F)) Variants.none c none) Set.univ (bodyAt0 t) (fun _ => normPost V c t) := by
  unfold normPre normPost bodyAt0
  simp only [normBefore0, normBefore1]
  rw [show (normDat V c).Φ t.succ = (normDat V c).Φ t.castSucc from rfl,
    show (normDat V c).owesAt () t.succ = (normDat V c).owesAt () t.castSucc from rfl,
    normAfter0, normAfter1, normAfter2]
  iintro ⟨HΦ, Ho, ⟨%d0, H0⟩, ⟨%d1, H1⟩, ⟨%d2, H2⟩⟩
  iapply (normKernel c Set.univ _ _ _ _ _ _ _ (normBlk V c 0 t) (normBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem normObligation (c : Dev nD) : BodyObligation (normDat (F := F) V c) (defs₀ (F := F)) Variants.none () Set.univ := fun t => by
  rw [bigSep_W0, bigSep_W0]
  exact normBody V c t

end

end Cert.Kernel.Hand

end
-- ==== Proof.KernelCos.lean ====
/-
  The similarity region (the second pallas_call) of the kernel, at the contents `V` its core's buffers hold when
  the region is entered.

  At grid point `t = (b, i, j)` the body reads TWO blocks of the SAME array (the normalised rows the first region
  wrote): rows `1024 i … 1024 i + 1023` and rows `2048 j … 2048 j + 2047` of batch `b`. It stores ONE value into
  the whole output block `[1, 1024, 2048]`: the products of every row of the first block with every row of the
  second (a matrix product into a zero accumulator against the second block transposed), each entry kept where it
  exceeds the threshold and replaced by the small constant elsewhere — the pure term `k1_pay1` of the two loaded
  blocks. The two input windows lie on one array, so the region holds that array at two complementary half
  shares, one per window; the output's array is held outright.
-/
import proofs.«129614_j39204461478656_1_alg».proof.Proof.Gen.Kernel.Launch
import proofs.«129614_j39204461478656_1_alg».proof.Proof.Gen.Kernel.Skeleton
import proofs.«129614_j39204461478656_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def cosBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the first
    window's index does not move along the last grid axis, and it is fetched only where it moves). -/
theorem cosBefore0_of {c : Dev nD} (dat : Dat τ (Elt F) Unit ℕ (UR sig nD τ) ℕ cfg1 c) (hA : dat.A 0 = V c (Pipeline.arrRef spec1 0))
    (hafter : ∀ t, dat.after 0 t = cosBlk V c 0 t) (t : Fin cfg1.N) (d) : dat.before 0 t d = cosBlk V c 0 t :=
  (dat.before_in_eq_fetched 0 rfl (fun _ => rfl) (fun _ _ _ => rfl) (fun t => by rw [hafter]; unfold Dat.blockOf cosBlk; rw [hA]; try rfl) t d).trans
    (by unfold Dat.fetched Dat.blockOf cosBlk; rw [hA]; try rfl)

theorem cosBefore1_of {c : Dev nD} (dat : Dat τ (Elt F) Unit ℕ (UR sig nD τ) ℕ cfg1 c) (hA : dat.A 1 = V c (Pipeline.arrRef spec1 1))
    (hafter : ∀ t, dat.after 1 t = cosBlk V c 1 t) (t : Fin cfg1.N) (d) : dat.before 1 t d = cosBlk V c 1 t :=
  (dat.before_in_eq_fetched 1 rfl (fun _ => rfl) (fun _ _ _ => rfl) (fun t => by rw [hafter]; unfold Dat.blockOf cosBlk; rw [hA]; try rfl) t d).trans
    (by unfold Dat.fetched Dat.blockOf cosBlk; rw [hA]; try rfl)

/-! ## What the body leaves in the output window's buffer -/

/-- The whole blocks the body loads and stores through. -/
abbrev cosRectI : Rect S1x1024x64 := Rect.unit (s := S1x1024x64) ![0, 0, 0] S1x1024x64.size inb_S1x1024x64_S1x1024x64_0_0_0
abbrev cosRectJ : Rect S1x2048x64 := Rect.unit (s := S1x2048x64) ![0, 0, 0] S1x2048x64.size inb_S1x2048x64_S1x2048x64_0_0_0
abbrev cosRectO : Rect S1x1024x2048 := Rect.unit (s := S1x1024x2048) ![0, 0, 0] S1x1024x2048.size inb_S1x1024x2048_S1x1024x2048_0_0_0

/-- The output buffer after the body, from the two input blocks: its one store as a list of pieces. -/
def cosOut (x0 : Vec F S1x1024x64 .bf16) (x1 : Vec F S1x2048x64 .bf16) : Vec F S1x1024x2048 .f32 :=
  View.canon [⟨cosRectO, k1_pay1 (View.ld x0 cosRectI) (View.ld x1 cosRectJ)⟩]

/-- The one store covers the buffer. -/
theorem cosCover (p0 : Vec F S1x1024x2048 .f32) (y : S1x1024x2048.Idx) :
    ∃ pc ∈ ([⟨cosRectO, p0⟩] : List (View.Piece (Elt F) S1x1024x2048 .f32)), y ∈ pc.1.set :=
  View.cover_of_tiled [⟨cosRectO, p0⟩] S1x1024x2048.size (by rfl) y

end

/-! ## The body's triple -/

set_option maxHeartbeats 1000000 in
/-- The body on whole staging memrefs, the inputs' at contents `x0`, `x1` and the output's at anything, runs to the
    continuation holding the inputs' as they were and the output's at `cosOut x0 x1`. (The body also loads the
    output buffer before storing into it; the loaded value is not used.) -/
theorem cosKernel (c : Dev nD) (E : Set ℕ) (i : grid1.Coords)
    (arg3 : Memref sig .tc .vmem S1x1024x64 .bf16) (harg3 : arg3.IsWhole) (arg4 : Memref sig .tc .vmem S1x2048x64 .bf16) (harg4 : arg4.IsWhole)
    (arg5 : Memref sig .tc .vmem S1x1024x2048 .f32) (harg5 : arg5.IsWhole)
    (x0 : Vec F S1x1024x64 .bf16) (x1 : Vec F S1x2048x64 .bf16) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (cosOut x0 x1)) -∗ K ⟨⟩))
      ⊢ wp frame (wpE (defs₀ (F := F)) Variants.none c none) E (cc1__mm_kernel i arg3 harg3 arg4 harg4 arg5 harg5) K := by
  simp only [cc1__mm_kernel_eq_skeleton]; unfold cc1__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cosCover _)

section
variable (V : (c : Dev nD) → (b : Ref sig .tc) → Buf (Elt F) ((c : Thread nD τ).loc b))

/-! ## The region's proof data -/

/-- The proof data of the region on core `c`: the arrays as the region finds them; after the body at point `t` each
    input's buffer at its block and the output's at `cosOut` of the two input blocks; the invariant the scoped
    buffers no window stages and the generator register, untouched; nothing owed; the two input windows hold their
    common array at the two halves of the full share. -/
def cosDat (c : Dev nD) : Dat τ (Elt F) Unit ℕ (UR sig nD τ) ℕ cfg1 c where
  A w := V c (Pipeline.arrRef spec1 w)
  after w t := match w with
    | ⟨0, _⟩ => cosBlk V c 0 t
    | ⟨1, _⟩ => cosBlk V c 1 t
    | ⟨2, _⟩ => cosOut (cosBlk V c 0 t) (cosBlk V c 1 t)
  Φ _ := Pipeline.ΦA spec1 c
  q w := match w with
    | ⟨0, _⟩ => fullShare.left
    | ⟨1, _⟩ => fullShare.right
    | ⟨2, _⟩ => fullShare
  owed _ := 0

theorem cosDat_A (c : Dev nD) (w : Fin cfg1.W) : (cosDat V c).A w = V c (Pipeline.arrRef spec1 w) := by
  dsimp only [cosDat]

theorem cosAfter0 (c : Dev nD) (t : Fin cfg1.N) : (cosDat V c).after 0 t = cosBlk V c 0 t := by dsimp only [cosDat]
theorem cosAfter1 (c : Dev nD) (t : Fin cfg1.N) : (cosDat V c).after 1 t = cosBlk V c 1 t := by dsimp only [cosDat]
theorem cosAfter2 (c : Dev nD) (t : Fin cfg1.N) :
    (cosDat V c).after 2 t = cosOut (cosBlk V c 0 t) (cosBlk V c 1 t) := by dsimp only [cosDat]

theorem cosBefore0 (c : Dev nD) (t : Fin cfg1.N) (d) : (cosDat V c).before 0 t d = cosBlk V c 0 t :=
  cosBefore0_of V (cosDat V c) (cosDat_A V c 0) (cosAfter0 V c) t d
theorem cosBefore1 (c : Dev nD) (t : Fin cfg1.N) (d) : (cosDat V c).before 1 t d = cosBlk V c 1 t :=
  cosBefore1_of V (cosDat V c) (cosDat_A V c 1) (cosAfter1 V c) t d

/-! ## The body obligation, at a generic point -/

/-- What the body is called with at point `t`, the windows one by one, -/
def cosPre (c : Dev nD) (t : Fin cfg1.N) : sProp 𝕄 :=
  iprop((cosDat V c).Φ t.castSucc ∗ (cosDat V c).owesAt () t.castSucc
    ∗ (∃ d, owns (c : Thread nD τ) (st1_0 t) fullShare ((cosDat V c).before 0 t d))
    ∗ (∃ d, owns (c : Thread nD τ) (st1_1 t) fullShare ((cosDat V c).before 1 t d))
    ∗ (∃ d, owns (c : Thread nD τ) (st1_2 t) fullShare ((cosDat V c).before 2 t d)))

/-- and what it returns. -/
def cosPost (c : Dev nD) (t : Fin cfg1.N) : sProp 𝕄 :=
  iprop((cosDat V c).Φ t.succ ∗ (cosDat V c).owesAt () t.succ
    ∗ owns (c : Thread nD τ) (st1_0 t) fullShare ((cosDat V c).after 0 t)
    ∗ owns (c : Thread nD τ) (st1_1 t) fullShare ((cosDat V c).after 1 t)
    ∗ owns (c : Thread nD τ) (st1_2 t) fullShare ((cosDat V c).after 2 t))

/-- The body at any point: the inputs' memrefs hold their blocks, so `cosKernel` applies; the invariant and the
    core's dues pass through unread. -/
theorem cosBody (c : Dev nD) (t : Fin cfg1.N) :
    cosPre V c t ⊢ wp frame (wpE (defs₀ (F := F)) Variants.none c none) Set.univ (bodyAt1 t) (fun _ => cosPost V c t) := by
  unfold cosPre cosPost bodyAt1
  simp only [cosBefore0, cosBefore1]
  rw [show (cosDat V c).Φ t.succ = (cosDat V c).Φ t.castSucc from rfl,
    show (cosDat V c).owesAt () t.succ = (cosDat V c).owesAt () t.castSucc from rfl,
    cosAfter0, cosAfter1, cosAfter2]
  iintro ⟨HΦ, Ho, ⟨%d0, H0⟩, ⟨%d1, H1⟩, ⟨%d2, H2⟩⟩
  iapply (cosKernel c Set.univ _ _ _ _ _ _ _ (cosBlk V c 0 t) (cosBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem cosObligation (c : Dev nD) : BodyObligation (cosDat (F := F) V c) (defs₀ (F := F)) Variants.none () Set.univ := fun t => by
  rw [bigSep_W1, bigSep_W1]
  exact cosBody V c t

end

end Cert.Kernel.Hand

end
-- ==== Proof.KernelRun.lean ====
/-
  The whole program's run: the two regions one after the other, with every buffer's contents named.

  The core's unscoped buffers are the two arguments, the array of normalised rows and the result. At launch they
  hold the memory's contents (`W0`). The first region reads the two arguments and writes the normalised rows: after
  it that array holds what its write-backs leave (`W1`). The second region reads that ONE array through two
  windows — so on entry its full share is split into two halves, one per window, and on exit the halves are joined
  again — and writes the result: after it the result holds what the second region's write-backs leave (`W2`),
  and nothing else has changed. The launch theorem for a list of regions then gives: every weakly fair execution
  ends, and the final memory holds `W2` at every unscoped buffer. The arguments are never written, so `W2` has
  them at their launch contents.
-/
import proofs.«129614_j39204461478656_1_alg».proof.Proof.KernelNorm
import proofs.«129614_j39204461478656_1_alg».proof.Proof.KernelCos

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- The same read at the TensorCore's references: what the first region's proof data take. -/
abbrev V0 : (c : Dev nD) → (b : Ref sig .tc) → Buf (Elt F) ((c : Thread nD τ).loc b) := fun c b => W0 m c b

/-- After the first region: its arrays at what the pipeline leaves, every other buffer as entered. -/
def W1 (c : Dev nD) : Valuation τ sig (Elt F) :=
  Pipeline.withArrays spec0 c (W0 m c) fun w => (normDat (V0 m) c).arrAt w cfg0.N
theorem W1_arr (c : Dev nD) (w : Fin cfg0.W) :
    W1 m c (Proc.devRef .tc (Pipeline.arrRef spec0 w)) = (normDat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the second region's proof data take. -/
abbrev V1 : (c : Dev nD) → (b : Ref sig .tc) → Buf (Elt F) ((c : Thread nD τ).loc b) := fun c b => W1 m c b
theorem hF0 (c : Dev nD) (w : Fin cfg0.W) : (normDat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region: the result at what the pipeline leaves, every other buffer as entered. -/
def W2 (c : Dev nD) : Valuation τ sig (Elt F) :=
  Function.update (W1 m c) (Proc.devRef .tc main_v1) ((cosDat (V1 m) c).arrAt 2 cfg1.N)
theorem W2_v1 (c : Dev nD) : W2 m c main_v1 = (cosDat (V1 m) c).arrAt 2 cfg1.N := Function.update_self ..
theorem W2_of_ne (c : Dev nD) (b : Ref sig .tc) (hb : b ≠ main_v1) : W2 m c b = W1 m c b :=
  Function.update_of_ne (StableHlo.devRef_ne_of_ne hb) ..

/-- The arguments end as launched: the first region reads each through an input window, the second bypasses them. -/
theorem W2_main_arg0 (c : Dev nD) : W2 m c main_arg0 = m ((c : Thread nD τ).loc main_arg0) :=
  (W2_of_ne m c main_arg0 (by decide)).trans <|
    (W1_arr m c 0).trans (((normDat (V0 m) c).arrAt_in 0 rfl _).trans (normDat_A (V0 m) c 0))
theorem W2_main_arg1 (c : Dev nD) : W2 m c main_arg1 = m ((c : Thread nD τ).loc main_arg1) :=
  (W2_of_ne m c main_arg1 (by decide)).trans <|
    (W1_arr m c 1).trans (((normDat (V0 m) c).arrAt_in 1 rfl _).trans (normDat_A (V0 m) c 1))
/-- The normalised rows the second region reads are what the first region's write-backs left. -/
theorem V1_main_v0 (c : Dev nD) : V1 m c main_v0 = (normDat (V0 m) c).arrAt 2 cfg0.N := W1_arr m c 2

/-! ## The proof data family and the thread state -/

/-- No pipeline has a prefetched table. -/
abbrev noTables : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) noTables p) c
  | ⟨0, _⟩ => fun c => normDat (V0 m) c
  | ⟨1, _⟩ => fun c => cosDat (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the generator register at some state and the core's dues, none. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W2`, the generator register at some state. -/
abbrev Tₙ (c : Dev nD) : sProp 𝕄 := iprop(StableHlo.held (c : Thread nD τ) (Pipeline.ucRefs τ sig) (W2 m c) ∗ ∃ r, prngReg c r)

/-- The four unscoped buffers, one by one. -/
theorem held_eq (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)) := by
  unfold StableHlo.held
  rw [bigSep_eq_bigSepL_of_eq [Proc.devRef .tc main_arg0, Proc.devRef .tc main_arg1, Proc.devRef .tc main_v0, Proc.devRef .tc main_v1] (by decide) (by decide)]
  rfl

/-- The second region's arrays, window by window: the array of normalised rows at its two halves, the result whole. -/
theorem cosArrays_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((cosDat V c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2)) := by
  unfold Dat.arrays
  rw [show (bigSep Finset.univ fun w : Fin cfg1.W =>
          (cfg1.win w).arr.view.loc (c : Thread nD τ) ↦[(cfg1.win w).arr.view.set]{(cosDat V c).share w} Fa w : sProp 𝕄)
        = bigSep Finset.univ fun w : Fin cfg1.W => (cfg1.win w).arr.view.loc (c : Thread nD τ) ↦{(cosDat V c).share w} Fa w
      from bigSep_congr fun w _ => by rw [(arr_whole1 w).set_eq_univ]]
  rw [bigSep_W1]
  rfl

/-! ## The regions as segments -/

set_option backward.isDefEq.respectTransparency.types false in
/-- THE FIRST REGION over the thread state: entered from every unscoped buffer at `W0`, left at `W1`. Its three
    arrays (distinct buffers) are split out of the unscoped buffers and put back at the exit contents; the
    generator register goes into the region's invariant and comes back; nothing is owed; the kernel has no
    semaphore of its own. -/
def reg0 : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (normObligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region's arrays at its entry: the array of normalised rows, held whole, is split into its two halves
    (one per input window); the result's array is held whole. -/
theorem cosEntry (c : Dev nD) :
    iprop((((c : Thread nD τ).loc main_v0) ↦{fullShare} W1 m c main_v0) ∗ (((c : Thread nD τ).loc main_v1) ↦{fullShare} W1 m c main_v1))
      ⊢ ((pdats m 1 c).arrays ((pdats m 1 c).arrAt · 0) : sProp 𝕄) := by
  rw [show pdats m 1 c = cosDat (V1 m) c from rfl, cosArrays_eq]
  iintro ⟨H0, H1⟩
  ihave Hh := (pointsTo_share (PosShare.mem_left_op_right fullShare)).1 $$ H0
  icases Hh with ⟨Hl, Hr⟩
  isplitl [Hl]; · iexact Hl
  isplitl [Hr]; · iexact Hr
  iexact H1

/-- And at its exit: the two halves, which still hold the entry contents (an input window's array is never
    written), are joined; the result's array holds what the write-backs left. -/
theorem cosExit (c : Dev nD) :
    ((pdats m 1 c).arrays ((pdats m 1 c).arrAt · cfg1.N) : sProp 𝕄)
      ⊢ iprop((((c : Thread nD τ).loc main_v0) ↦{fullShare} W1 m c main_v0) ∗ (((c : Thread nD τ).loc main_v1) ↦{fullShare} W2 m c main_v1)) := by
  rw [show pdats m 1 c = cosDat (V1 m) c from rfl, cosArrays_eq,
    (cosDat (V1 m) c).arrAt_in 0 rfl cfg1.N, (cosDat (V1 m) c).arrAt_in 1 rfl cfg1.N, W2_v1]
  iintro ⟨Hl, Hr, H1⟩
  isplitl [Hl Hr]
  · iapply (pointsTo_share (PosShare.mem_left_op_right fullShare)).2
    isplitl [Hl]; · iexact Hl
    iexact Hr
  iexact H1

set_option backward.isDefEq.respectTransparency.types false in
/-- THE SECOND REGION over the thread state: entered from every unscoped buffer at `W1`, left at `W2`. Its two input
    windows lie on ONE array, so the arrays are taken out of the unscoped buffers one by one (`cosEntry`) and put
    back one by one (`cosExit`); the two arguments bypass the region. -/
def reg1 : Pipeline.RegionSeg (pcfgs (F := F)) noTables (pdats m) () defs₀ 𝒱₀ L lv 1 where
  win := winFacts₀1
  block_pos := block_pos1
  stage_whole := stage_whole1
  K := PEmpty
  osem k := k.elim
  ho := Pipeline.OwnSemFacts.none _
  hbody c := (cosObligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none, held_eq, unscopedRest1_eq]
    iintro ⟨⟨⟨Ha0, Ha1, Hv0, Hv1⟩, Hp, HO⟩, -, -⟩
    ihave Ha := (cosEntry m c) $$ [Hv0 Hv1]
    · isplitl [Hv0]; · iexact Hv0
      iexact Hv1
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    iexact Ha1
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    unfold Tₙ
    rw [unscopedRest1_eq, held_eq, W2_of_ne m c main_arg0 (by decide), W2_of_ne m c main_arg1 (by decide), W2_of_ne m c main_v0 (by decide)]
    iintro ⟨Ha, HO, HY, ⟨Ha0, Ha1⟩⟩
    ihave Hx := (cosExit m c) $$ Ha
    icases Hx with ⟨Hv0, Hv1⟩
    imodintro
    isplitl [Ha0 Ha1 Hv0 Hv1 HY]
    · isplitl [Ha0 Ha1 Hv0 Hv1]
      · isplitl [Ha0]; · iexact Ha0
        isplitl [Ha1]; · iexact Ha1
        isplitl [Hv0]; · iexact Hv0
        iexact Hv1
      iexact HY
    unfold Pipeline.Dat.owesAt Pipeline.owesWithin
    icases HO with ⟨%W, -, HO⟩; iexists W; iexact HO

/-! ## @main as segments, and the launch -/

/-- @main's two segments in order: a region per pallas_call, nothing between them. -/
abbrev segs : List (Pipeline.Seg (pcfgs (F := F)) noTables (pdats m) () defs₀ 𝒱₀ L lv) :=
  [ .region (reg0 m), .region (reg1 m) ]

set_option backward.isDefEq.respectTransparency.types false in
/-- THE RUN: from any memory with zero counters, every weakly fair execution of @main on the TensorCores terminates,
    nothing faulting, and the final memory holds `W2` at every unscoped buffer of every core. -/
theorem run : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) noTables (pdats m) () cellOf_inj emb₁ defs₀ 𝒱₀ L lv m ρ main (segs m)
    (fun c Q => by rw [main_segs noTables (pdats m) () 𝒱₀ L lv (reg0 m) (reg1 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE RUN, read at the result and the arguments: the result ends at what the second region's write-backs left,
    the arguments as launched. -/
theorem run_result : θ_run defs (onTc (τ := τ) (main (F := F))) ⟨m, fun _ => 0, ρ⟩ (fun r => ∀ c : Dev nD,
      r.2.mem ((c.tc : Thread nD τ).loc main_v1) = (cosDat (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1 (by decide))).trans (W2_v1 m c),
      (h c _ (mem_uc main_arg0 (by decide))).trans (W2_main_arg0 m c),
      (h c _ (mem_uc main_arg1 (by decide))).trans (W2_main_arg1 m c)⟩) (run m ρ)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.Kernel.Hand

end
-- ==== Proof.KernelIdealNorm.lean ====
/-
  The normalising region (the first pallas_call) of the kernel, at the contents `V` its core's buffers hold
  when the region is entered.

  At grid point `t = (b, n)` the body reads the block of rows `1024 n … 1024 n + 1023` of batch `b` of `x`
  and the same rows of `w` (whose one batch every `b` shares), and stores ONE value into the whole output
  block: the rows' products `x · w` divided by `max (sqrt (Σ_f (x · w)²), ε)`, rounded to bf16 — the pure term
  `k0_pay1` of the two loaded blocks. So what the output window's buffer holds after the body is a function of
  the two input blocks alone (`normOut`); the input windows' buffers are left as found. The body's triple is
  run symbolically; the region's proof data (`normDat`) names those contents, and the body obligation at a
  generic point follows.
-/
import proofs.«129614_j39204461478656_1_alg».proof.Proof.Gen.KernelIdeal.Launch
import proofs.«129614_j39204461478656_1_alg».proof.Proof.Gen.KernelIdeal.Skeleton
import proofs.«129614_j39204461478656_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def normBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place: the window is uncut and never idle, and where it is not
    fetched its index has not moved. -/
theorem normBefore0_of {c : Dev nD} (dat : Dat τ (Elt F) Unit ℕ (UR sig nD τ) ℕ cfg0 c) (hA : dat.A 0 = V c (Pipeline.arrRef spec0 0))
    (hafter : ∀ t, dat.after 0 t = normBlk V c 0 t) (t : Fin cfg0.N) (d) : dat.before 0 t d = normBlk V c 0 t :=
  (dat.before_in_eq_fetched 0 rfl (fun _ => rfl) (fun _ _ _ => rfl) (fun t => by rw [hafter]; unfold Dat.blockOf normBlk; rw [hA]; try rfl) t d).trans
    (by unfold Dat.fetched Dat.blockOf normBlk; rw [hA]; try rfl)

theorem normBefore1_of {c : Dev nD} (dat : Dat τ (Elt F) Unit ℕ (UR sig nD τ) ℕ cfg0 c) (hA : dat.A 1 = V c (Pipeline.arrRef spec0 1))
    (hafter : ∀ t, dat.after 1 t = normBlk V c 1 t) (t : Fin cfg0.N) (d) : dat.before 1 t d = normBlk V c 1 t :=
  (dat.before_in_eq_fetched 1 rfl (fun _ => rfl) (fun _ _ _ => rfl) (fun t => by rw [hafter]; unfold Dat.blockOf normBlk; rw [hA]; try rfl) t d).trans
    (by unfold Dat.fetched Dat.blockOf normBlk; rw [hA]; try rfl)

/-! ## What the body leaves in the output window's buffer -/

/-- The whole block `[1, 1024, 64]`: the one rectangle the body loads and stores through. -/
abbrev normRect : Rect S1x1024x64 := Rect.unit (s := S1x1024x64) ![0, 0, 0] S1x1024x64.size inb_S1x1024x64_S1x1024x64_0_0_0

/-- The output buffer after the body, from the two input blocks: its one store as a list of pieces. -/
def normOut (x0 : Vec F S1x1024x64 .f32) (x1 : Vec F S1x1024x64 .f32) : Vec F S1x1024x64 .bf16 :=
  View.canon [⟨normRect, k0_pay1 (View.ld x0 normRect) (View.ld x1 normRect)⟩]

/-- The one store covers the buffer. -/
theorem normCover (p0 : Vec F S1x1024x64 .bf16) (y : S1x1024x64.Idx) :
    ∃ pc ∈ ([⟨normRect, p0⟩] : List (View.Piece (Elt F) S1x1024x64 .bf16)), y ∈ pc.1.set :=
  View.cover_of_tiled [⟨normRect, p0⟩] S1x1024x64.size (by rfl) y

end

/-! ## The body's triple -/

set_option maxHeartbeats 1000000 in
/-- The body on whole staging memrefs, the inputs' at contents `x0`, `x1` and the output's at anything, runs to the
    continuation holding the inputs' as they were and the output's at `normOut x0 x1`. (The body also loads the
    output buffer before storing into it; the loaded value is not used.) -/
theorem normKernel (c : Dev nD) (E : Set ℕ) (i : grid0.Coords)
    (arg2 : Memref sig .tc .vmem S1x1024x64 .f32) (harg2 : arg2.IsWhole) (arg3 : Memref sig .tc .vmem S1x1024x64 .f32) (harg3 : arg3.IsWhole)
    (arg4 : Memref sig .tc .vmem S1x1024x64 .bf16) (harg4 : arg4.IsWhole)
    (x0 : Vec F S1x1024x64 .f32) (x1 : Vec F S1x1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (normOut x0 x1)) -∗ K ⟨⟩))
      ⊢ wp frame (wpE (defs₀ (F := F)) Variants.none c none) E (cc0__norm_kernel i arg2 harg2 arg3 harg3 arg4 harg4) K := by
  simp only [cc0__norm_kernel_eq_skeleton]; unfold cc0__norm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (normCover _)

section
variable (V : (c : Dev nD) → (b : Ref sig .tc) → Buf (Elt F) ((c : Thread nD τ).loc b))

/-! ## The region's proof data -/

/-- The proof data of the region on core `c`: the arrays as the region finds them; after the body at point `t` each
    input's buffer at its block and the output's at `normOut` of the two input blocks; the invariant the scoped
    buffers no window stages and the generator register, untouched; nothing owed; full shares. -/
def normDat (c : Dev nD) : Dat τ (Elt F) Unit ℕ (UR sig nD τ) ℕ cfg0 c where
  A w := V c (Pipeline.arrRef spec0 w)
  after w t := match w with
    | ⟨0, _⟩ => normBlk V c 0 t
    | ⟨1, _⟩ => normBlk V c 1 t
    | ⟨2, _⟩ => normOut (normBlk V c 0 t) (normBlk V c 1 t)
  Φ _ := Pipeline.ΦA spec0 c
  q _ := fullShare
  owed _ := 0

theorem normDat_A (c : Dev nD) (w : Fin cfg0.W) : (normDat V c).A w = V c (Pipeline.arrRef spec0 w) := by
  dsimp only [normDat]

theorem normAfter0 (c : Dev nD) (t : Fin cfg0.N) : (normDat V c).after 0 t = normBlk V c 0 t := by dsimp only [normDat]
theorem normAfter1 (c : Dev nD) (t : Fin cfg0.N) : (normDat V c).after 1 t = normBlk V c 1 t := by dsimp only [normDat]
theorem normAfter2 (c : Dev nD) (t : Fin cfg0.N) :
    (normDat V c).after 2 t = normOut (normBlk V c 0 t) (normBlk V c 1 t) := by dsimp only [normDat]

theorem normBefore0 (c : Dev nD) (t : Fin cfg0.N) (d) : (normDat V c).before 0 t d = normBlk V c 0 t :=
  normBefore0_of V (normDat V c) (normDat_A V c 0) (normAfter0 V c) t d
theorem normBefore1 (c : Dev nD) (t : Fin cfg0.N) (d) : (normDat V c).before 1 t d = normBlk V c 1 t :=
  normBefore1_of V (normDat V c) (normDat_A V c 1) (normAfter1 V c) t d

/-! ## The body obligation, at a generic point -/

/-- What the body is called with at point `t`, the windows one by one, -/
def normPre (c : Dev nD) (t : Fin cfg0.N) : sProp 𝕄 :=
  iprop((normDat V c).Φ t.castSucc ∗ (normDat V c).owesAt () t.castSucc
    ∗ (∃ d, owns (c : Thread nD τ) (st0_0 t) fullShare ((normDat V c).before 0 t d))
    ∗ (∃ d, owns (c : Thread nD τ) (st0_1 t) fullShare ((normDat V c).before 1 t d))
    ∗ (∃ d, owns (c : Thread nD τ) (st0_2 t) fullShare ((normDat V c).before 2 t d)))

/-- and what it returns. -/
def normPost (c : Dev nD) (t : Fin cfg0.N) : sProp 𝕄 :=
  iprop((normDat V c).Φ t.succ ∗ (normDat V c).owesAt () t.succ
    ∗ owns (c : Thread nD τ) (st0_0 t) fullShare ((normDat V c).after 0 t)
    ∗ owns (c : Thread nD τ) (st0_1 t) fullShare ((normDat V c).after 1 t)
    ∗ owns (c : Thread nD τ) (st0_2 t) fullShare ((normDat V c).after 2 t))

/-- The body at any point: the inputs' memrefs hold their blocks, so `normKernel` applies; the invariant and the
    core's dues pass through unread. -/
theorem normBody (c : Dev nD) (t : Fin cfg0.N) :
    normPre V c t ⊢ wp frame (wpE (defs₀ (F := F)) Variants.none c none) Set.univ (bodyAt0 t) (fun _ => normPost V c t) := by
  unfold normPre normPost bodyAt0
  simp only [normBefore0, normBefore1]
  rw [show (normDat V c).Φ t.succ = (normDat V c).Φ t.castSucc from rfl,
    show (normDat V c).owesAt () t.succ = (normDat V c).owesAt () t.castSucc from rfl,
    normAfter0, normAfter1, normAfter2]
  iintro ⟨HΦ, Ho, ⟨%d0, H0⟩, ⟨%d1, H1⟩, ⟨%d2, H2⟩⟩
  iapply (normKernel c Set.univ _ _ _ _ _ _ _ (normBlk V c 0 t) (normBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem normObligation (c : Dev nD) : BodyObligation (normDat (F := F) V c) (defs₀ (F := F)) Variants.none () Set.univ := fun t => by
  rw [bigSep_W0, bigSep_W0]
  exact normBody V c t

end

end Cert.KernelIdeal.Hand

end
-- ==== Proof.KernelIdealCos.lean ====
/-
  The similarity region (the second pallas_call) of the kernel, at the contents `V` its core's buffers hold when
  the region is entered.

  At grid point `t = (b, i, j)` the body reads TWO blocks of the SAME array (the normalised rows the first region
  wrote): rows `1024 i … 1024 i + 1023` and rows `2048 j … 2048 j + 2047` of batch `b`. It stores ONE value into
  the whole output block `[1, 1024, 2048]`: the products of every row of the first block with every row of the
  second (a matrix product into a zero accumulator against the second block transposed), each entry kept where it
  exceeds the threshold and replaced by the small constant elsewhere — the pure term `k1_pay1` of the two loaded
  blocks. The two input windows lie on one array, so the region holds that array at two complementary half
  shares, one per window; the output's array is held outright.
-/
import proofs.«129614_j39204461478656_1_alg».proof.Proof.Gen.KernelIdeal.Launch
import proofs.«129614_j39204461478656_1_alg».proof.Proof.Gen.KernelIdeal.Skeleton
import proofs.«129614_j39204461478656_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def cosBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the first
    window's index does not move along the last grid axis, and it is fetched only where it moves). -/
theorem cosBefore0_of {c : Dev nD} (dat : Dat τ (Elt F) Unit ℕ (UR sig nD τ) ℕ cfg1 c) (hA : dat.A 0 = V c (Pipeline.arrRef spec1 0))
    (hafter : ∀ t, dat.after 0 t = cosBlk V c 0 t) (t : Fin cfg1.N) (d) : dat.before 0 t d = cosBlk V c 0 t :=
  (dat.before_in_eq_fetched 0 rfl (fun _ => rfl) (fun _ _ _ => rfl) (fun t => by rw [hafter]; unfold Dat.blockOf cosBlk; rw [hA]; try rfl) t d).trans
    (by unfold Dat.fetched Dat.blockOf cosBlk; rw [hA]; try rfl)

theorem cosBefore1_of {c : Dev nD} (dat : Dat τ (Elt F) Unit ℕ (UR sig nD τ) ℕ cfg1 c) (hA : dat.A 1 = V c (Pipeline.arrRef spec1 1))
    (hafter : ∀ t, dat.after 1 t = cosBlk V c 1 t) (t : Fin cfg1.N) (d) : dat.before 1 t d = cosBlk V c 1 t :=
  (dat.before_in_eq_fetched 1 rfl (fun _ => rfl) (fun _ _ _ => rfl) (fun t => by rw [hafter]; unfold Dat.blockOf cosBlk; rw [hA]; try rfl) t d).trans
    (by unfold Dat.fetched Dat.blockOf cosBlk; rw [hA]; try rfl)

/-! ## What the body leaves in the output window's buffer -/

/-- The whole blocks the body loads and stores through. -/
abbrev cosRectI : Rect S1x1024x64 := Rect.unit (s := S1x1024x64) ![0, 0, 0] S1x1024x64.size inb_S1x1024x64_S1x1024x64_0_0_0
abbrev cosRectJ : Rect S1x2048x64 := Rect.unit (s := S1x2048x64) ![0, 0, 0] S1x2048x64.size inb_S1x2048x64_S1x2048x64_0_0_0
abbrev cosRectO : Rect S1x1024x2048 := Rect.unit (s := S1x1024x2048) ![0, 0, 0] S1x1024x2048.size inb_S1x1024x2048_S1x1024x2048_0_0_0

/-- The output buffer after the body, from the two input blocks: its one store as a list of pieces. -/
def cosOut (x0 : Vec F S1x1024x64 .bf16) (x1 : Vec F S1x2048x64 .bf16) : Vec F S1x1024x2048 .f32 :=
  View.canon [⟨cosRectO, k1_pay1 (View.ld x0 cosRectI) (View.ld x1 cosRectJ)⟩]

/-- The one store covers the buffer. -/
theorem cosCover (p0 : Vec F S1x1024x2048 .f32) (y : S1x1024x2048.Idx) :
    ∃ pc ∈ ([⟨cosRectO, p0⟩] : List (View.Piece (Elt F) S1x1024x2048 .f32)), y ∈ pc.1.set :=
  View.cover_of_tiled [⟨cosRectO, p0⟩] S1x1024x2048.size (by rfl) y

end

/-! ## The body's triple -/

set_option maxHeartbeats 1000000 in
/-- The body on whole staging memrefs, the inputs' at contents `x0`, `x1` and the output's at anything, runs to the
    continuation holding the inputs' as they were and the output's at `cosOut x0 x1`. (The body also loads the
    output buffer before storing into it; the loaded value is not used.) -/
theorem cosKernel (c : Dev nD) (E : Set ℕ) (i : grid1.Coords)
    (arg3 : Memref sig .tc .vmem S1x1024x64 .bf16) (harg3 : arg3.IsWhole) (arg4 : Memref sig .tc .vmem S1x2048x64 .bf16) (harg4 : arg4.IsWhole)
    (arg5 : Memref sig .tc .vmem S1x1024x2048 .f32) (harg5 : arg5.IsWhole)
    (x0 : Vec F S1x1024x64 .bf16) (x1 : Vec F S1x2048x64 .bf16) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (cosOut x0 x1)) -∗ K ⟨⟩))
      ⊢ wp frame (wpE (defs₀ (F := F)) Variants.none c none) E (cc1__mm_kernel i arg3 harg3 arg4 harg4 arg5 harg5) K := by
  simp only [cc1__mm_kernel_eq_skeleton]; unfold cc1__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cosCover _)

section
variable (V : (c : Dev nD) → (b : Ref sig .tc) → Buf (Elt F) ((c : Thread nD τ).loc b))

/-! ## The region's proof data -/

/-- The proof data of the region on core `c`: the arrays as the region finds them; after the body at point `t` each
    input's buffer at its block and the output's at `cosOut` of the two input blocks; the invariant the scoped
    buffers no window stages and the generator register, untouched; nothing owed; the two input windows hold their
    common array at the two halves of the full share. -/
def cosDat (c : Dev nD) : Dat τ (Elt F) Unit ℕ (UR sig nD τ) ℕ cfg1 c where
  A w := V c (Pipeline.arrRef spec1 w)
  after w t := match w with
    | ⟨0, _⟩ => cosBlk V c 0 t
    | ⟨1, _⟩ => cosBlk V c 1 t
    | ⟨2, _⟩ => cosOut (cosBlk V c 0 t) (cosBlk V c 1 t)
  Φ _ := Pipeline.ΦA spec1 c
  q w := match w with
    | ⟨0, _⟩ => fullShare.left
    | ⟨1, _⟩ => fullShare.right
    | ⟨2, _⟩ => fullShare
  owed _ := 0

theorem cosDat_A (c : Dev nD) (w : Fin cfg1.W) : (cosDat V c).A w = V c (Pipeline.arrRef spec1 w) := by
  dsimp only [cosDat]

theorem cosAfter0 (c : Dev nD) (t : Fin cfg1.N) : (cosDat V c).after 0 t = cosBlk V c 0 t := by dsimp only [cosDat]
theorem cosAfter1 (c : Dev nD) (t : Fin cfg1.N) : (cosDat V c).after 1 t = cosBlk V c 1 t := by dsimp only [cosDat]
theorem cosAfter2 (c : Dev nD) (t : Fin cfg1.N) :
    (cosDat V c).after 2 t = cosOut (cosBlk V c 0 t) (cosBlk V c 1 t) := by dsimp only [cosDat]

theorem cosBefore0 (c : Dev nD) (t : Fin cfg1.N) (d) : (cosDat V c).before 0 t d = cosBlk V c 0 t :=
  cosBefore0_of V (cosDat V c) (cosDat_A V c 0) (cosAfter0 V c) t d
theorem cosBefore1 (c : Dev nD) (t : Fin cfg1.N) (d) : (cosDat V c).before 1 t d = cosBlk V c 1 t :=
  cosBefore1_of V (cosDat V c) (cosDat_A V c 1) (cosAfter1 V c) t d

/-! ## The body obligation, at a generic point -/

/-- What the body is called with at point `t`, the windows one by one, -/
def cosPre (c : Dev nD) (t : Fin cfg1.N) : sProp 𝕄 :=
  iprop((cosDat V c).Φ t.castSucc ∗ (cosDat V c).owesAt () t.castSucc
    ∗ (∃ d, owns (c : Thread nD τ) (st1_0 t) fullShare ((cosDat V c).before 0 t d))
    ∗ (∃ d, owns (c : Thread nD τ) (st1_1 t) fullShare ((cosDat V c).before 1 t d))
    ∗ (∃ d, owns (c : Thread nD τ) (st1_2 t) fullShare ((cosDat V c).before 2 t d)))

/-- and what it returns. -/
def cosPost (c : Dev nD) (t : Fin cfg1.N) : sProp 𝕄 :=
  iprop((cosDat V c).Φ t.succ ∗ (cosDat V c).owesAt () t.succ
    ∗ owns (c : Thread nD τ) (st1_0 t) fullShare ((cosDat V c).after 0 t)
    ∗ owns (c : Thread nD τ) (st1_1 t) fullShare ((cosDat V c).after 1 t)
    ∗ owns (c : Thread nD τ) (st1_2 t) fullShare ((cosDat V c).after 2 t))

/-- The body at any point: the inputs' memrefs hold their blocks, so `cosKernel` applies; the invariant and the
    core's dues pass through unread. -/
theorem cosBody (c : Dev nD) (t : Fin cfg1.N) :
    cosPre V c t ⊢ wp frame (wpE (defs₀ (F := F)) Variants.none c none) Set.univ (bodyAt1 t) (fun _ => cosPost V c t) := by
  unfold cosPre cosPost bodyAt1
  simp only [cosBefore0, cosBefore1]
  rw [show (cosDat V c).Φ t.succ = (cosDat V c).Φ t.castSucc from rfl,
    show (cosDat V c).owesAt () t.succ = (cosDat V c).owesAt () t.castSucc from rfl,
    cosAfter0, cosAfter1, cosAfter2]
  iintro ⟨HΦ, Ho, ⟨%d0, H0⟩, ⟨%d1, H1⟩, ⟨%d2, H2⟩⟩
  iapply (cosKernel c Set.univ _ _ _ _ _ _ _ (cosBlk V c 0 t) (cosBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem cosObligation (c : Dev nD) : BodyObligation (cosDat (F := F) V c) (defs₀ (F := F)) Variants.none () Set.univ := fun t => by
  rw [bigSep_W1, bigSep_W1]
  exact cosBody V c t

end

end Cert.KernelIdeal.Hand

end
-- ==== Proof.KernelIdealRun.lean ====
/-
  The whole program's run: the two regions one after the other, with every buffer's contents named.

  The core's unscoped buffers are the two arguments, the array of normalised rows and the result. At launch they
  hold the memory's contents (`W0`). The first region reads the two arguments and writes the normalised rows: after
  it that array holds what its write-backs leave (`W1`). The second region reads that ONE array through two
  windows — so on entry its full share is split into two halves, one per window, and on exit the halves are joined
  again — and writes the result: after it the result holds what the second region's write-backs leave (`W2`),
  and nothing else has changed. The launch theorem for a list of regions then gives: every weakly fair execution
  ends, and the final memory holds `W2` at every unscoped buffer. The arguments are never written, so `W2` has
  them at their launch contents.
-/
import proofs.«129614_j39204461478656_1_alg».proof.Proof.KernelIdealNorm
import proofs.«129614_j39204461478656_1_alg».proof.Proof.KernelIdealCos

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- The same read at the TensorCore's references: what the first region's proof data take. -/
abbrev V0 : (c : Dev nD) → (b : Ref sig .tc) → Buf (Elt F) ((c : Thread nD τ).loc b) := fun c b => W0 m c b

/-- After the first region: its arrays at what the pipeline leaves, every other buffer as entered. -/
def W1 (c : Dev nD) : Valuation τ sig (Elt F) :=
  Pipeline.withArrays spec0 c (W0 m c) fun w => (normDat (V0 m) c).arrAt w cfg0.N
theorem W1_arr (c : Dev nD) (w : Fin cfg0.W) :
    W1 m c (Proc.devRef .tc (Pipeline.arrRef spec0 w)) = (normDat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the second region's proof data take. -/
abbrev V1 : (c : Dev nD) → (b : Ref sig .tc) → Buf (Elt F) ((c : Thread nD τ).loc b) := fun c b => W1 m c b
theorem hF0 (c : Dev nD) (w : Fin cfg0.W) : (normDat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region: the result at what the pipeline leaves, every other buffer as entered. -/
def W2 (c : Dev nD) : Valuation τ sig (Elt F) :=
  Function.update (W1 m c) (Proc.devRef .tc main_v1) ((cosDat (V1 m) c).arrAt 2 cfg1.N)
theorem W2_v1 (c : Dev nD) : W2 m c main_v1 = (cosDat (V1 m) c).arrAt 2 cfg1.N := Function.update_self ..
theorem W2_of_ne (c : Dev nD) (b : Ref sig .tc) (hb : b ≠ main_v1) : W2 m c b = W1 m c b :=
  Function.update_of_ne (StableHlo.devRef_ne_of_ne hb) ..

/-- The arguments end as launched: the first region reads each through an input window, the second bypasses them. -/
theorem W2_main_arg0 (c : Dev nD) : W2 m c main_arg0 = m ((c : Thread nD τ).loc main_arg0) :=
  (W2_of_ne m c main_arg0 (by decide)).trans <|
    (W1_arr m c 0).trans (((normDat (V0 m) c).arrAt_in 0 rfl _).trans (normDat_A (V0 m) c 0))
theorem W2_main_arg1 (c : Dev nD) : W2 m c main_arg1 = m ((c : Thread nD τ).loc main_arg1) :=
  (W2_of_ne m c main_arg1 (by decide)).trans <|
    (W1_arr m c 1).trans (((normDat (V0 m) c).arrAt_in 1 rfl _).trans (normDat_A (V0 m) c 1))
/-- The normalised rows the second region reads are what the first region's write-backs left. -/
theorem V1_main_v0 (c : Dev nD) : V1 m c main_v0 = (normDat (V0 m) c).arrAt 2 cfg0.N := W1_arr m c 2

/-! ## The proof data family and the thread state -/

/-- No pipeline has a prefetched table. -/
abbrev noTables : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) noTables p) c
  | ⟨0, _⟩ => fun c => normDat (V0 m) c
  | ⟨1, _⟩ => fun c => cosDat (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the generator register at some state and the core's dues, none. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W2`, the generator register at some state. -/
abbrev Tₙ (c : Dev nD) : sProp 𝕄 := iprop(StableHlo.held (c : Thread nD τ) (Pipeline.ucRefs τ sig) (W2 m c) ∗ ∃ r, prngReg c r)

/-- The four unscoped buffers, one by one. -/
theorem held_eq (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)) := by
  unfold StableHlo.held
  rw [bigSep_eq_bigSepL_of_eq [Proc.devRef .tc main_arg0, Proc.devRef .tc main_arg1, Proc.devRef .tc main_v0, Proc.devRef .tc main_v1] (by decide) (by decide)]
  rfl

/-- The second region's arrays, window by window: the array of normalised rows at its two halves, the result whole. -/
theorem cosArrays_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((cosDat V c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2)) := by
  unfold Dat.arrays
  rw [show (bigSep Finset.univ fun w : Fin cfg1.W =>
          (cfg1.win w).arr.view.loc (c : Thread nD τ) ↦[(cfg1.win w).arr.view.set]{(cosDat V c).share w} Fa w : sProp 𝕄)
        = bigSep Finset.univ fun w : Fin cfg1.W => (cfg1.win w).arr.view.loc (c : Thread nD τ) ↦{(cosDat V c).share w} Fa w
      from bigSep_congr fun w _ => by rw [(arr_whole1 w).set_eq_univ]]
  rw [bigSep_W1]
  rfl

/-! ## The regions as segments -/

set_option backward.isDefEq.respectTransparency.types false in
/-- THE FIRST REGION over the thread state: entered from every unscoped buffer at `W0`, left at `W1`. Its three
    arrays (distinct buffers) are split out of the unscoped buffers and put back at the exit contents; the
    generator register goes into the region's invariant and comes back; nothing is owed; the kernel has no
    semaphore of its own. -/
def reg0 : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (normObligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region's arrays at its entry: the array of normalised rows, held whole, is split into its two halves
    (one per input window); the result's array is held whole. -/
theorem cosEntry (c : Dev nD) :
    iprop((((c : Thread nD τ).loc main_v0) ↦{fullShare} W1 m c main_v0) ∗ (((c : Thread nD τ).loc main_v1) ↦{fullShare} W1 m c main_v1))
      ⊢ ((pdats m 1 c).arrays ((pdats m 1 c).arrAt · 0) : sProp 𝕄) := by
  rw [show pdats m 1 c = cosDat (V1 m) c from rfl, cosArrays_eq]
  iintro ⟨H0, H1⟩
  ihave Hh := (pointsTo_share (PosShare.mem_left_op_right fullShare)).1 $$ H0
  icases Hh with ⟨Hl, Hr⟩
  isplitl [Hl]; · iexact Hl
  isplitl [Hr]; · iexact Hr
  iexact H1

/-- And at its exit: the two halves, which still hold the entry contents (an input window's array is never
    written), are joined; the result's array holds what the write-backs left. -/
theorem cosExit (c : Dev nD) :
    ((pdats m 1 c).arrays ((pdats m 1 c).arrAt · cfg1.N) : sProp 𝕄)
      ⊢ iprop((((c : Thread nD τ).loc main_v0) ↦{fullShare} W1 m c main_v0) ∗ (((c : Thread nD τ).loc main_v1) ↦{fullShare} W2 m c main_v1)) := by
  rw [show pdats m 1 c = cosDat (V1 m) c from rfl, cosArrays_eq,
    (cosDat (V1 m) c).arrAt_in 0 rfl cfg1.N, (cosDat (V1 m) c).arrAt_in 1 rfl cfg1.N, W2_v1]
  iintro ⟨Hl, Hr, H1⟩
  isplitl [Hl Hr]
  · iapply (pointsTo_share (PosShare.mem_left_op_right fullShare)).2
    isplitl [Hl]; · iexact Hl
    iexact Hr
  iexact H1

set_option backward.isDefEq.respectTransparency.types false in
/-- THE SECOND REGION over the thread state: entered from every unscoped buffer at `W1`, left at `W2`. Its two input
    windows lie on ONE array, so the arrays are taken out of the unscoped buffers one by one (`cosEntry`) and put
    back one by one (`cosExit`); the two arguments bypass the region. -/
def reg1 : Pipeline.RegionSeg (pcfgs (F := F)) noTables (pdats m) () defs₀ 𝒱₀ L lv 1 where
  win := winFacts₀1
  block_pos := block_pos1
  stage_whole := stage_whole1
  K := PEmpty
  osem k := k.elim
  ho := Pipeline.OwnSemFacts.none _
  hbody c := (cosObligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none, held_eq, unscopedRest1_eq]
    iintro ⟨⟨⟨Ha0, Ha1, Hv0, Hv1⟩, Hp, HO⟩, -, -⟩
    ihave Ha := (cosEntry m c) $$ [Hv0 Hv1]
    · isplitl [Hv0]; · iexact Hv0
      iexact Hv1
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    iexact Ha1
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    unfold Tₙ
    rw [unscopedRest1_eq, held_eq, W2_of_ne m c main_arg0 (by decide), W2_of_ne m c main_arg1 (by decide), W2_of_ne m c main_v0 (by decide)]
    iintro ⟨Ha, HO, HY, ⟨Ha0, Ha1⟩⟩
    ihave Hx := (cosExit m c) $$ Ha
    icases Hx with ⟨Hv0, Hv1⟩
    imodintro
    isplitl [Ha0 Ha1 Hv0 Hv1 HY]
    · isplitl [Ha0 Ha1 Hv0 Hv1]
      · isplitl [Ha0]; · iexact Ha0
        isplitl [Ha1]; · iexact Ha1
        isplitl [Hv0]; · iexact Hv0
        iexact Hv1
      iexact HY
    unfold Pipeline.Dat.owesAt Pipeline.owesWithin
    icases HO with ⟨%W, -, HO⟩; iexists W; iexact HO

/-! ## @main as segments, and the launch -/

/-- @main's two segments in order: a region per pallas_call, nothing between them. -/
abbrev segs : List (Pipeline.Seg (pcfgs (F := F)) noTables (pdats m) () defs₀ 𝒱₀ L lv) :=
  [ .region (reg0 m), .region (reg1 m) ]

set_option backward.isDefEq.respectTransparency.types false in
/-- THE RUN: from any memory with zero counters, every weakly fair execution of @main on the TensorCores terminates,
    nothing faulting, and the final memory holds `W2` at every unscoped buffer of every core. -/
theorem run : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) noTables (pdats m) () cellOf_inj emb₁ defs₀ 𝒱₀ L lv m ρ main (segs m)
    (fun c Q => by rw [main_segs noTables (pdats m) () 𝒱₀ L lv (reg0 m) (reg1 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE RUN, read at the result and the arguments: the result ends at what the second region's write-backs left,
    the arguments as launched. -/
theorem run_result : θ_run defs (onTc (τ := τ) (main (F := F))) ⟨m, fun _ => 0, ρ⟩ (fun r => ∀ c : Dev nD,
      r.2.mem ((c.tc : Thread nD τ).loc main_v1) = (cosDat (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1 (by decide))).trans (W2_v1 m c),
      (h c _ (mem_uc main_arg0 (by decide))).trans (W2_main_arg0 m c),
      (h c _ (mem_uc main_arg1 (by decide))).trans (W2_main_arg1 m c)⟩) (run m ρ)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.KernelIdeal.Hand

end
-- ==== Proof.RefStages.lean ====
/-
  The reference program's result as a composition of two functions.

  The reference normalises every row of `x · w` (`w`'s one batch shared by every batch of `x`): row `(b, n)`
  is divided by `max (sqrt (Σ_f (x · w)²), ε)`. That array — the generated stage `val_main_v9` — is the value the
  kernel's first region must produce. The result is then a function of that array alone (`cosSpec`): at
  `(b, i, j)` the inner product `Σ_f y(b, i, f) · y(b, j, f)` of two normalised rows of one batch, kept where it
  exceeds the threshold and replaced by the small constant elsewhere. `result_eq` says that the reference's last
  stage is `cosSpec` of its normalised rows: the generated read-at-an-index lemmas, chained.
-/
import proofs.«129614_j39204461478656_1_alg».proof.Proof.Gen.ReferenceIdeal.Run
import proofs.«129614_j39204461478656_1_alg».proof.Proof.Gen.ReferenceIdeal.Read

noncomputable section

namespace Cert.ReferenceIdeal.RefStages

open Cert.ReferenceIdeal Cert.ReferenceIdeal.Read Idealize.ShloMosaic

/-- The inner product of rows `i 1` and `i 2` of batch `i 0` of `y`. -/
def rowDot (y : S4x4096x64.Idx → EReal) (i : S4x4096x4096.Idx) : EReal :=
  ∑ k : Fin 64, y (lidx_main_v10 i k) * y (ridx_main_v10 i k)

/-- The thresholded similarities, as a function of the normalised rows. -/
def cosSpec (y : S4x4096x64.Idx → EReal) : S4x4096x4096.Idx → EReal := fun i =>
  Scalar.select (FloatOps.cmpf (F := Ideal) (φ := .f32) .ogt (rowDot y i) (FloatOps.ofBits (F := Ideal) .f32 0x3DCCCCCD#32))
    (rowDot y i) (FloatOps.ofBits (F := Ideal) .f32 0x2822212D#32)

/-- The reference's result is `cosSpec` of its normalised rows. -/
theorem result_eq (x : (⟨S4x4096x64, .f32⟩ : BufTy).Contents (Elt Ideal)) (w : (⟨S1x4096x64, .f32⟩ : BufTy).Contents (Elt Ideal)) :
    val_main_v13 (F := Ideal) x w = cosSpec (val_main_v9 (F := Ideal) x w) := by
  funext i
  rw [val_main_v13_apply, val_main_v12_apply, val_main_v10_apply, val_main_v11_apply, val_main_cst_1_apply,
    val_main_call0_v0_apply, val_main_cst_2_apply]
  rfl

end Cert.ReferenceIdeal.RefStages

end
-- ==== Proof.NormValue.lean ====
/-
  What the normalising region leaves in its output array, at the exact values: the reference's normalised rows.
-/
import proofs.«129614_j39204461478656_1_alg».proof.Proof.KernelIdealNorm
import proofs.«129614_j39204461478656_1_alg».proof.Proof.RefStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormValue

open Cert.KernelIdeal Cert.KernelIdeal.Gen Cert.KernelIdeal.Hand
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## A column of row values: the two layout steps between the row sums and the division -/

/-- A vector of `a` row values cast to a column `[a, 1]` reads, at `(i, u)`, the vector at `i`: the two positions
    are the same in row-major order, the unit coordinate `u` being `0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` lanes reads, at `(p, c)`, the column's entry of row `p`, whatever the lane. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else c.val
    rw [if_pos rfl]

/-! ## The body's value at an entry of its block -/

/-- The sum over the 64 lanes of a `[1024, 64]` block, at row `p`: the row's 64 entries added up (the sum starts
    from the word of `+0`, the neutral element of addition). -/
theorem laneSum_apply (src : FVec Ideal S1024x64 .f32) (hφ : FKind.Formats FTy.f32)
    (hacc : (0x00000000#32 : BitVec 32) = 0x00000000#32) (p : Fin 1024) :
    multiReduction (F := Ideal) .add [1] S1024 src 0x00000000#32 reduces_S1024x64_S1024 hφ hacc (ix1 p)
      = ∑ k : Fin 64, src (ix2 p k) := by
  refine (Ideal.multiReduction_add_single src 0x00000000#32 reduces_S1024x64_S1024 hφ hacc (ix1 p)).trans ?_
  refine Finset.sum_congr rfl fun k _ => congrArg src ?_
  funext a
  match a with
  | ⟨0, _⟩ => rfl
  | ⟨1, _⟩ => rfl

/-- The square root of a block, at an entry: the square root of the entry. -/
theorem sqrt_apply {s : Shape} {φ : FTy} (a : FVec Ideal s φ) (i : s.Idx) : sqrt a i = Ideal.sqrt (a i) := rfl

/-- THE BODY'S VALUE at entry `(u, p, q)` of its block, from the two loaded blocks: the product of the two blocks'
    entries at row `p`, lane `q`, divided by the larger of ε and the square root of the sum, over row `p`'s 64 lanes,
    of the squared products. An entry depends on row `p` of the two blocks and on nothing else. (At the exact values
    the change of format to bf16 is the identity, and the unit axis dropped on the way in and put back on the way
    out carries no information.) -/
theorem payload_apply (x0 x1 : Vec Ideal S1x1024x64 .f32) (u : Fin 1) (p : Fin 1024) (q : Fin 64) :
    k0_pay1 (F := Ideal) x0 x1 (ix3 u p q)
      = Ideal.div (x0 (ix3 (0 : Fin 1) p q) * x1 (ix3 (0 : Fin 1) p q))
          (max (Ideal.sqrt (∑ k : Fin 64, (x0 (ix3 (0 : Fin 1) p k) * x1 (ix3 (0 : Fin 1) p k)) * (x0 (ix3 (0 : Fin 1) p k) * x1 (ix3 (0 : Fin 1) p k))))
            (Ideal.ofBits .f32 0x322BCC77#32)) := by
  unfold k0_pay1
  rw [shapeCast_ab_1ab_apply, truncf_apply, divf_apply, broadcastTo_a1_ab_apply, maximumf_apply, broadcast_apply,
    sqrt_apply, shapeCast_a_a1_apply, laneSum_apply]
  simp only [mulf_apply, shapeCast_1ab_ab_apply]
  rfl

/-! ## The reference's stage at an index -/

section Reference
open Cert.ReferenceIdeal.Read

/-- The weights have one batch: entry `(b, r, f)` of their copy over the 4 batches is the weights' `(0, r, f)`. -/
theorem idx_weights (b : Fin 4) (r : Fin 4096) (f : Fin 64) :
    idx_main_v0 (ix3 b r f) = ix3 (0 : Fin 1) r f := by
  funext a
  match a with
  | ⟨0, _⟩ => rfl
  | ⟨1, _⟩ => rfl
  | ⟨2, _⟩ => rfl

/-- The norm that entry `(b, r, f)` is divided by is summed over the lanes `k` of its own row `(b, r)`. -/
theorem idx_row (b : Fin 4) (r : Fin 4096) (f k : Fin 64) :
    idx_main_v3 (idx_main_v4 (idx_main_v8 (ix3 b r f))) k = ix3 b r k := by
  funext a
  match a with
  | ⟨0, _⟩ => rfl
  | ⟨1, _⟩ => rfl
  | ⟨2, _⟩ => rfl

/-- THE REFERENCE'S STAGE at `(b, r, f)`: the product `X(b, r, f) · W(0, r, f)` divided by the larger of ε and the
    square root of the sum, over the 64 lanes `k`, of the squares of `X(b, r, k) · W(0, r, k)`. The reference starts its
    sum from the value of the word of `+0`, which is `0`; `0 + s = s` is the one law used. -/
theorem ref_apply (X : S4x4096x64.Idx → EReal) (W : S1x4096x64.Idx → EReal) (b : Fin 4) (r : Fin 4096) (f : Fin 64) :
    val_main_v9 (F := Ideal) X W (ix3 b r f)
      = Ideal.div (X (ix3 b r f) * W (ix3 (0 : Fin 1) r f))
          (max (Ideal.sqrt (∑ k : Fin 64, (X (ix3 b r k) * W (ix3 (0 : Fin 1) r k)) * (X (ix3 b r k) * W (ix3 (0 : Fin 1) r k))))
            (Ideal.ofBits .f32 0x322BCC77#32)) := by
  rw [val_main_v9_apply, val_main_v8_apply, val_main_v7_apply, val_main_v6_apply, val_main_cst_0_apply,
    val_main_v5_apply, val_main_v4_apply, val_main_v3_apply, val_main_cst_apply]
  simp only [val_main_v2_apply, val_main_v1_apply, val_main_v0_apply, idx_row, idx_weights]
  simp only [Ideal.hostDivf_def, Ideal.mulf_def, Ideal.maximumf_def, Ideal.hostUnary_sqrt_def, Ideal.ofBits_def,
    Ideal.ofBits_zero_f32, zero_add]

/-! ## One point's block, against the reference -/

/-- If the two loaded blocks are rows `1024 n … 1024 n + 1023` of batch `b` of `X` and the same rows of `W`'s one
    batch, the body's value at entry `j` of its block is the reference's stage at the array index `i` that `j`
    sits at: batch `b`, row `1024 n + j₁`, lane `j₂`. The two are the same expression of the same entries of `X` and
    `W`, because the row that `i` is normalised over lies wholly inside the block. -/
theorem block_value (X : S4x4096x64.Idx → EReal) (W : S1x4096x64.Idx → EReal)
    (x0 x1 : Vec Ideal S1x1024x64 .f32) (b n : Nat)
    (hx0 : ∀ (p : Fin 1024) (q : Fin 64) (i : S4x4096x64.Idx),
      (i 0).val = b → (i 1).val = n * 1024 + p.val → (i 2).val = q.val → x0 (ix3 (0 : Fin 1) p q) = X i)
    (hx1 : ∀ (p : Fin 1024) (q : Fin 64) (i : S1x4096x64.Idx),
      (i 1).val = n * 1024 + p.val → (i 2).val = q.val → x1 (ix3 (0 : Fin 1) p q) = W i)
    (j : S1x1024x64.Idx) (i : S4x4096x64.Idx)
    (hi0 : (i 0).val = b) (hi1 : (i 1).val = n * 1024 + (j 1).val) (hi2 : (i 2).val = (j 2).val) :
    k0_pay1 (F := Ideal) x0 x1 j = val_main_v9 (F := Ideal) X W i := by
  obtain ⟨u, p, q, rfl⟩ : ∃ (u : Fin 1) (p : Fin 1024) (q : Fin 64), j = ix3 u p q := ⟨j 0, j 1, j 2, eq_ix3 j⟩
  obtain ⟨b', r, f, rfl⟩ : ∃ (b' : Fin 4) (r : Fin 4096) (f : Fin 64), i = ix3 b' r f := ⟨i 0, i 1, i 2, eq_ix3 i⟩
  have hb : b'.val = b := hi0
  have hr : r.val = n * 1024 + p.val := hi1
  have hf : f = q := Fin.ext hi2
  subst hf
  have e0 : ∀ k : Fin 64, x0 (ix3 (0 : Fin 1) p k) = X (ix3 b' r k) := fun k => hx0 p k _ hb hr rfl
  have e1 : ∀ k : Fin 64, x1 (ix3 (0 : Fin 1) p k) = W (ix3 (0 : Fin 1) r k) := fun k => hx1 p k _ hr rfl
  rw [payload_apply, ref_apply]
  simp only [e0, e1]

end Reference

/-! ## From the 16 blocks to the array -/

/-- The one rectangle the body loads and stores through starts at the block's origin. -/
theorem offsets_zero : (![0, 0, 0] : Fin 3 → Nat) = fun _ => 0 := funext fun a => by fin_cases a <;> rfl

/-- Where the three windows sit at each of the 16 points `(b, n)`, by inspection of every point: the `x` window is at
    the output window's batch and row block; the `w` window is at the same row block of the one batch it has; no window
    moves along the lanes; and the output's batch and row block are each among `0 … 3`. -/
theorem windows_at_point : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = 0
    ∧ win0_1.index t (1 : Fin 3) = win0_2.index t (1 : Fin 3)
    ∧ win0_1.index t (2 : Fin 3) = 0
    ∧ win0_2.index t (0 : Fin 3) ≤ 3
    ∧ win0_2.index t (1 : Fin 3) ≤ 3
    ∧ win0_2.index t (2 : Fin 3) = 0 :=
  (by decide +kernel : ∀ t : Fin grid0.N, _)

/-- Every (batch, row block) pair is some point's output block. -/
theorem point_of_batch_rowBlock : ∀ (q0 : Fin 4) (q1 : Fin 4), ∃ t : Fin cfg0.N, win0_2.index t = ![q0.val, q1.val, 0] :=
  (by decide +kernel : ∀ (q0 : Fin 4) (q1 : Fin 4), ∃ t : Fin grid0.N, win0_2.index t = ![q0.val, q1.val, 0])

/-- WHAT POINT `t` WRITES BACK is block `t` of the reference's normalised rows of the two argument arrays: entry `j`
    of a block at block index `(b, n, 0)` sits in the array at `(b · 1 + j₀, n · 1024 + j₁, 0 · 64 + j₂)`, and the two
    input blocks at the same point are read off `x` and `w` at those rows. -/
theorem writeBack_eq (c : Dev nD) (t : Fin cfg0.N) :
    (normDat (F := Ideal) V c).flushed 2 t
      = ((cfg0.win 2).blk t).view.read (Elt Ideal)
          (Cert.ReferenceIdeal.Read.val_main_v9 (F := Ideal) (V c main_arg0) (V c main_arg1)) := by
  show (cfg0.win 2).cut (grid0.coords t) ((normDat (F := Ideal) V c).after 2 t) = _
  rw [normAfter2]
  unfold normOut
  rw [View.canon_unit_zero offsets_zero]
  simp only [View.ld_unit_zero (S := S1x1024x64) offsets_zero]
  obtain ⟨f00, f01, f02, f10, f11, f12, f20, f21, f22⟩ := windows_at_point t
  funext j
  show k0_pay1 (F := Ideal) (normBlk V c 0 t) (normBlk V c 1 t) j
      = Cert.ReferenceIdeal.Read.val_main_v9 (F := Ideal) (V c main_arg0) (V c main_arg1) (((cfg0.win 2).blk t).view.emb j)
  have hj0 : (j 0).val < 1 := (j 0).isLt
  refine block_value (V c main_arg0) (V c main_arg1) _ _ (win0_2.index t (0 : Fin 3)) (win0_2.index t (1 : Fin 3)) ?_ ?_ j _ ?_ ?_ ?_
  · intro p q i h0 h1 h2
    show V c main_arg0 (((cfg0.win 0).blk t).view.emb (ix3 (0 : Fin 1) p q)) = V c main_arg0 i
    refine congrArg _ (funext fun a => Fin.ext ?_)
    match a with
    | ⟨0, _⟩ => show win0_0.index t (0 : Fin 3) * 1 + 1 * 0 = (i 0).val; omega
    | ⟨1, _⟩ => show win0_0.index t (1 : Fin 3) * 1024 + 1 * p.val = (i 1).val; omega
    | ⟨2, _⟩ => show win0_0.index t (2 : Fin 3) * 64 + 1 * q.val = (i 2).val; omega
  · intro p q i h1 h2
    have hi0 : (i 0).val < 1 := (i 0).isLt
    show V c main_arg1 (((cfg0.win 1).blk t).view.emb (ix3 (0 : Fin 1) p q)) = V c main_arg1 i
    refine congrArg _ (funext fun a => Fin.ext ?_)
    match a with
    | ⟨0, _⟩ => show win0_1.index t (0 : Fin 3) * 1 + 1 * 0 = (i 0).val; omega
    | ⟨1, _⟩ => show win0_1.index t (1 : Fin 3) * 1024 + 1 * p.val = (i 1).val; omega
    | ⟨2, _⟩ => show win0_1.index t (2 : Fin 3) * 64 + 1 * q.val = (i 2).val; omega
  · show win0_2.index t (0 : Fin 3) * 1 + 1 * (j 0).val = win0_2.index t (0 : Fin 3); omega
  · show win0_2.index t (1 : Fin 3) * 1024 + 1 * (j 1).val = win0_2.index t (1 : Fin 3) * 1024 + (j 1).val; omega
  · show win0_2.index t (2 : Fin 3) * 64 + 1 * (j 2).val = (j 2).val; omega

/-- An index of the array is in point `t`'s output block iff each coordinate is in the block's range on its axis. -/
theorem mem_block_iff (t : Fin cfg0.N) (i : S4x4096x64.Idx) :
    i ∈ ((cfg0.win 2).blk t).view.set
      ↔ ∀ a : Fin 3, win0_2.index t a * S1x1024x64.size a ≤ (i a).val
          ∧ (i a).val < win0_2.index t a * S1x1024x64.size a + S1x1024x64.size a := by
  show i ∈ ((View.whole main_v0).slice (win0_2.rect t)).set ↔ _
  rw [View.set_slice_whole, Rect.mem_set_unit]
  exact Iff.rfl

/-- THE 16 BLOCKS TILE THE ARRAY: index `(b, r, f)` is in the block of the point at batch `b`, row block `r / 1024`
    (`1024 (r / 1024) ≤ r < 1024 (r / 1024) + 1024`, and every lane is in every block); that point writes back. -/
theorem blocks_tile (i : S4x4096x64.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 64 := (i 2).isLt
  obtain ⟨t, ht⟩ := point_of_batch_rowBlock ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_block_iff]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- After the region's last point its output array holds, at every index, the reference's normalised rows of the
    two argument arrays as the region found them. -/
theorem normFinal (c : Dev nD) :
    ((normDat (F := Ideal) V c).arrAt 2 cfg0.N : S4x4096x64.Idx → EReal)
      = Cert.ReferenceIdeal.Read.val_main_v9 (F := Ideal) (V c main_arg0) (V c main_arg1) :=
  (normDat (F := Ideal) V c).arrAt_eq_of_cover 2 _ (fun t _ => writeBack_eq V c t) blocks_tile

end Cert.KernelIdeal.NormValue

end
-- ==== Proof.CosValue.lean ====
/-
  What the similarity region leaves in its output array, at the exact values: the thresholded inner products of
  the rows of the array it read.
-/
import proofs.«129614_j39204461478656_1_alg».proof.Proof.KernelIdealCos
import proofs.«129614_j39204461478656_1_alg».proof.Proof.RefStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CosValue

open Cert.KernelIdeal Cert.KernelIdeal.Gen Cert.KernelIdeal.Hand
open Idealize.ShloMosaic Idealize.ShloMosaic.TcCoe Idealize.SL.Sem
open Idealize.ShloMosaic.Pipeline (Dat Cfg Window)
open Idealize.ShloMosaic.ValueIdx
open Cert.ReferenceIdeal.RefStages Cert.ReferenceIdeal.Read

/-! ## The matrix product at an index

The product contracts the second axis of its left operand with the first axis of its right operand; the left
operand's first axis and the right operand's second axis are the result's two axes. -/

theorem lhs_mm_0 (i : S1024x2048.Idx) (q : dot_S1024x64_S64x2048_S1024x2048_1_0_0_1_n_n.contr.Idx) :
    (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem lhs_mm_1 (i : S1024x2048.Idx) (q : dot_S1024x64_S64x2048_S1024x2048_1_0_0_1_n_n.contr.Idx) :
    (dot_S1024x64_S64x2048_S1024x2048_1_0_0_1_n_n.lhsIdx i q 1).val = (q ⟨0, by decide⟩).val :=
  dot_S1024x64_S64x2048_S1024x2048_1_0_0_1_n_n.lhsIdx_val_of_single rfl i q
theorem rhs_mm_0 (i : S1024x2048.Idx) (q : dot_S1024x64_S64x2048_S1024x2048_1_0_0_1_n_n.contr.Idx) :
    (dot_S1024x64_S64x2048_S1024x2048_1_0_0_1_n_n.rhsIdx i q 0).val = (q ⟨0, by decide⟩).val :=
  dot_S1024x64_S64x2048_S1024x2048_1_0_0_1_n_n.rhsIdx_val_of_single rfl i q
theorem rhs_mm_1 (i : S1024x2048.Idx) (q : dot_S1024x64_S64x2048_S1024x2048_1_0_0_1_n_n.contr.Idx) :
    (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- The product into the zero accumulator at `(p, q)`: row `p` of the left operand against column `q` of the right. -/
theorem mm_apply (a : FVec Ideal S1024x64 .bf16) (b : FVec Ideal S64x2048 .bf16) (p : Fin 1024) (q : Fin 2048) :
    matmul dot_S1024x64_S64x2048_S1024x2048_1_0_0_1_n_n none a b (constant (F := Ideal) S1024x2048 .f32 0x00000000#32) (ix2 p q)
      = ∑ k : Fin 64, a (ix2 p k) * b (ix2 k q) := by
  show FloatOps.matmul dot_S1024x64_S64x2048_S1024x2048_1_0_0_1_n_n none a b (constant (F := Ideal) S1024x2048 .f32 0x00000000#32) (ix2 p q) = _
  rw [Ideal.matmul_constant_zero_apply, ← Equiv.sum_comp (ValueIdx.contrEquiv1 dot_S1024x64_S64x2048_S1024x2048_1_0_0_1_n_n 64 rfl rfl).symm]
  refine Finset.sum_congr rfl fun k _ => ?_
  have hk := ValueIdx.contrEquiv1_symm_val dot_S1024x64_S64x2048_S1024x2048_1_0_0_1_n_n 64 rfl rfl k
  have el : dot_S1024x64_S64x2048_S1024x2048_1_0_0_1_n_n.lhsIdx (ix2 p q) ((ValueIdx.contrEquiv1 dot_S1024x64_S64x2048_S1024x2048_1_0_0_1_n_n 64 rfl rfl).symm k) = ix2 p k := funext fun x => Fin.ext (by
    match x with
    | ⟨0, _⟩ => exact lhs_mm_0 _ _
    | ⟨1, _⟩ => exact (lhs_mm_1 _ _).trans hk)
  have er : dot_S1024x64_S64x2048_S1024x2048_1_0_0_1_n_n.rhsIdx (ix2 p q) ((ValueIdx.contrEquiv1 dot_S1024x64_S64x2048_S1024x2048_1_0_0_1_n_n 64 rfl rfl).symm k) = ix2 k q := funext fun x => Fin.ext (by
    match x with
    | ⟨0, _⟩ => exact (rhs_mm_0 _ _).trans hk
    | ⟨1, _⟩ => exact rhs_mm_1 _ _)
  rw [el, er]

/-! ## The stored block at an index -/

/-- A similarity kept where it exceeds the threshold, replaced by the small constant elsewhere. -/
def keep (s : EReal) : EReal :=
  Scalar.select (FloatOps.cmpf (F := Ideal) (φ := .f32) .ogt s (FloatOps.ofBits (F := Ideal) .f32 0x3DCCCCCD#32)) s
    (FloatOps.ofBits (F := Ideal) .f32 0x2822212D#32)

/-- The specification at an index is the kept inner product of the two rows the index names. -/
theorem cosSpec_apply (y : S4x4096x64.Idx → EReal) (i : S4x4096x4096.Idx) : cosSpec y i = keep (rowDot y i) := rfl

/-- The second block transposed reads, at `(k, q)`, the block at `(q, k)`. -/
theorem tr_apply (y : FVec Ideal S2048x64 .bf16) (k : Fin 64) (q : Fin 2048) :
    transpose S64x2048 [1, 0] y transposes_S2048x64_p1_0_S64x2048 (ix2 k q) = y (ix2 q k) :=
  transpose_ix2_apply y transposes_S2048x64_p1_0_S64x2048 k q

/-- The body's stored value at `(0, p, q)`: the inner product of row `p` of the first loaded block with row `q` of the
    second, kept where it exceeds the threshold and replaced by the small constant elsewhere. -/
theorem pay_apply (x0 : FVec Ideal S1x1024x64 .bf16) (x1 : FVec Ideal S1x2048x64 .bf16) (u : Fin 1) (p : Fin 1024) (q : Fin 2048) :
    k1_pay1 (F := Ideal) x0 x1 (ix3 u p q) = keep (∑ k : Fin 64, x0 (ix3 (0 : Fin 1) p k) * x1 (ix3 (0 : Fin 1) q k)) := by
  unfold k1_pay1
  rw [shapeCast_ab_1ab_apply, select_apply, cmpf_apply, broadcast_apply, broadcast_apply, mm_apply]
  have hs : (∑ k : Fin 64, shapeCast S1024x64 x0 shapeCasts_S1x1024x64_S1024x64 (ix2 p k)
        * transpose S64x2048 [1, 0] (shapeCast S2048x64 x1 shapeCasts_S1x2048x64_S2048x64) transposes_S2048x64_p1_0_S64x2048 (ix2 k q))
      = ∑ k : Fin 64, x0 (ix3 (0 : Fin 1) p k) * x1 (ix3 (0 : Fin 1) q k) :=
    Finset.sum_congr rfl fun k _ => by
      rw [tr_apply, shapeCast_1ab_ab_apply, shapeCast_1ab_ab_apply]
  exact congrArg keep hs

/-- A stored block's entry against the specification: when row `j 1` of the first loaded block is row `i 1` of batch
    `i 0` of the array `A`, and row `j 2` of the second loaded block is row `i 2` of the same batch, the entry at `j` is
    the specification of `A` at `i`. -/
theorem blk_value (A : S4x4096x64.Idx → EReal) (x0 : FVec Ideal S1x1024x64 .bf16) (x1 : FVec Ideal S1x2048x64 .bf16)
    (i : S4x4096x4096.Idx) (j : S1x1024x2048.Idx) (p : Fin 1024) (q : Fin 2048) (hp : (j 1).val = p.val) (hq : (j 2).val = q.val)
    (h0 : ∀ k : Fin 64, x0 (ix3 (0 : Fin 1) p k) = A (lidx_main_v10 i k))
    (h1 : ∀ k : Fin 64, x1 (ix3 (0 : Fin 1) q k) = A (ridx_main_v10 i k)) :
    k1_pay1 (F := Ideal) x0 x1 j = cosSpec A i := by
  have hu : (j 0).val < 1 := (j 0).isLt
  have e : j = ix3 (0 : Fin 1) p q := funext fun a => Fin.ext (by
    match a with
    | ⟨0, _⟩ => show (j 0).val = 0; omega
    | ⟨1, _⟩ => exact hp
    | ⟨2, _⟩ => exact hq)
  rw [e, pay_apply, cosSpec_apply]
  exact congrArg keep (Finset.sum_congr rfl fun k _ => by rw [h0 k, h1 k])

/-! ## From the blocks to the array

Grid point `t = (b, i, j)` reads rows `1024 i …` and rows `2048 j …` of batch `b` and writes the block of the result at
block index `(b, i, j)`; the 32 result blocks tile the array. -/

theorem hz3 : (![0, 0, 0] : Fin 3 → Nat) = fun _ => 0 := funext fun a => by fin_cases a <;> rfl

/-- The block indices of the three windows at a point: both input blocks are of the output block's batch, the first
    at the output's row-block index and the second at the output's column-block index, each over all 64 features. -/
theorem idx_facts : ∀ t : Fin cfg1.N,
    win1_0.index t (0 : Fin 3) = win1_2.index t (0 : Fin 3)
    ∧ win1_0.index t (1 : Fin 3) = win1_2.index t (1 : Fin 3)
    ∧ win1_0.index t (2 : Fin 3) = 0
    ∧ win1_1.index t (0 : Fin 3) = win1_2.index t (0 : Fin 3)
    ∧ win1_1.index t (1 : Fin 3) = win1_2.index t (2 : Fin 3)
    ∧ win1_1.index t (2 : Fin 3) = 0
    ∧ win1_2.index t (0 : Fin 3) ≤ 3 ∧ win1_2.index t (1 : Fin 3) ≤ 3 ∧ win1_2.index t (2 : Fin 3) ≤ 1 :=
  (by decide +kernel : ∀ t : Fin grid1.N, _)

/-- Every block index of the result is some point's. -/
theorem idx_onto : ∀ (q0 : Fin 4) (q1 : Fin 4) (q2 : Fin 2), ∃ t : Fin cfg1.N, win1_2.index t = ![q0.val, q1.val, q2.val] :=
  (by decide +kernel : ∀ (q0 : Fin 4) (q1 : Fin 4) (q2 : Fin 2), ∃ t : Fin grid1.N, win1_2.index t = ![q0.val, q1.val, q2.val])

variable (V : (c : Dev nD) → (b : Ref sig .tc) → Buf (Elt Ideal) ((c : Thread nD τ).loc b))

/-- What point `t` writes back is block `t` of the specification of the array of normalised rows. -/
theorem flushed_eq (c : Dev nD) (t : Fin cfg1.N) :
    (cosDat (F := Ideal) V c).flushed 2 t = ((cfg1.win 2).blk t).view.read (Elt Ideal) (cosSpec (V c main_v0)) := by
  show (cfg1.win 2).cut (grid1.coords t) ((cosDat (F := Ideal) V c).after 2 t) = _
  rw [cosAfter2]
  unfold cosOut
  rw [View.canon_unit_zero hz3]
  simp only [View.ld_unit_zero (S := S1x1024x64) hz3, View.ld_unit_zero (S := S1x2048x64) hz3]
  obtain ⟨e00, e01, e02, e10, e11, e12, b0, b1, b2⟩ := idx_facts t
  funext j
  have hj0 : (j 0).val < 1 := (j 0).isLt
  have hj1 : (j 1).val < 1024 := (j 1).isLt
  have hj2 : (j 2).val < 2048 := (j 2).isLt
  refine blk_value (V c main_v0) (cosBlk V c 0 t) (cosBlk V c 1 t) (((cfg1.win 2).blk t).view.emb j) j
    ⟨(j 1).val, hj1⟩ ⟨(j 2).val, hj2⟩ rfl rfl (fun k => ?_) (fun k => ?_)
  · show V c main_v0 (((cfg1.win 0).blk t).view.emb (ix3 (0 : Fin 1) (⟨(j 1).val, hj1⟩ : Fin 1024) k))
      = V c main_v0 (lidx_main_v10 (((cfg1.win 2).blk t).view.emb j) k)
    refine congrArg (V c main_v0) (funext fun a => Fin.ext ?_)
    match a with
    | ⟨0, _⟩ => show win1_0.index t (0 : Fin 3) * 1 + 1 * 0 = win1_2.index t (0 : Fin 3) * 1 + 1 * (j 0).val; omega
    | ⟨1, _⟩ => show win1_0.index t (1 : Fin 3) * 1024 + 1 * (j 1).val = win1_2.index t (1 : Fin 3) * 1024 + 1 * (j 1).val; omega
    | ⟨2, _⟩ => show win1_0.index t (2 : Fin 3) * 64 + 1 * k.val = k.val; omega
  · show V c main_v0 (((cfg1.win 1).blk t).view.emb (ix3 (0 : Fin 1) (⟨(j 2).val, hj2⟩ : Fin 2048) k))
      = V c main_v0 (ridx_main_v10 (((cfg1.win 2).blk t).view.emb j) k)
    refine congrArg (V c main_v0) (funext fun a => Fin.ext ?_)
    match a with
    | ⟨0, _⟩ => show win1_1.index t (0 : Fin 3) * 1 + 1 * 0 = win1_2.index t (0 : Fin 3) * 1 + 1 * (j 0).val; omega
    | ⟨1, _⟩ => show win1_1.index t (1 : Fin 3) * 2048 + 1 * (j 2).val = win1_2.index t (2 : Fin 3) * 2048 + 1 * (j 2).val; omega
    | ⟨2, _⟩ => show win1_1.index t (2 : Fin 3) * 64 + 1 * k.val = k.val; omega

/-- An index of the result is in point `t`'s block iff each coordinate is in the block's range on its axis. -/
theorem mem_blk (t : Fin cfg1.N) (i : S4x4096x4096.Idx) :
    i ∈ ((cfg1.win 2).blk t).view.set ↔ ∀ a : Fin 3, win1_2.index t a * S1x1024x2048.size a ≤ (i a).val
      ∧ (i a).val < win1_2.index t a * S1x1024x2048.size a + S1x1024x2048.size a := by
  show i ∈ ((View.whole main_v1).slice (win1_2.rect t)).set ↔ _
  rw [View.set_slice_whole, Rect.mem_set_unit]
  exact Iff.rfl

/-- Every index of the result is in some point's block: batch `i 0`, row block `i 1 / 1024`, column block `i 2 / 2048`. -/
theorem cover (i : S4x4096x4096.Idx) : ∃ t : Fin cfg1.N, (cfg1.win 2).flush t = true ∧ i ∈ ((cfg1.win 2).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 1024, by omega⟩ ⟨(i 2).val / 2048, by omega⟩
  have q0 : win1_2.index t (0 : Fin 3) = (i 0).val := congrFun ht 0
  have q1 : win1_2.index t (1 : Fin 3) = (i 1).val / 1024 := congrFun ht 1
  have q2 : win1_2.index t (2 : Fin 3) = (i 2).val / 2048 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 2048 ≤ (i 2).val ∧ (i 2).val < win1_2.index t (2 : Fin 3) * 2048 + 2048; omega

/-- After the region's last point its output array holds `cosSpec` of the array of normalised rows the region found. -/
theorem cosFinal (c : Dev nD) :
    ((cosDat (F := Ideal) V c).arrAt 2 cfg1.N : S4x4096x4096.Idx → EReal)
      = Cert.ReferenceIdeal.RefStages.cosSpec (V c main_v0) := by
  exact (cosDat (F := Ideal) V c).arrAt_eq_of_cover 2 (cosSpec (V c main_v0)) (fun t _ => flushed_eq V c t) cover

end Cert.KernelIdeal.CosValue

end
-- ==== Proof.lean ====
/-
  A cosine-similarity kernel against its reference, over the extended reals.

  Both programs take `x : [4, 4096, 64]` and `w : [1, 4096, 64]`, form the rows `x · w` (every batch of `x` against
  `w`'s one batch), divide each row by `max (sqrt (Σ_f (x · w)²), ε)`, and return, for every batch `b` and every pair
  of rows `(i, j)`, the inner product of the two normalised rows where it exceeds a threshold and a small constant
  elsewhere. The reference does it with whole-array host operations. The kernel does it in two pipelined regions:
  the first normalises blocks of 1024 rows (and rounds them to bf16, which at the exact values is the identity);
  the second multiplies a block of 1024 normalised rows with a block of 2048 normalised rows of the same batch (a
  matrix product into a zero accumulator) and applies the threshold. The literals (ε, the threshold, the small
  constant) are the same words on both sides, the sums differ only in how they are tiled, so the two results are
  the same function of the arguments and no finiteness of the inputs is used.

  The frames: each kernel region's body is run symbolically once at a generic grid point, the two regions are
  chained through the launch theorem for a list of regions (the second region's two input windows lie on one
  array, whose share is halved on entry and rejoined on exit), and the final memory is read off buffer by buffer.
  The same text, generic in the float instance, serves the word-level program and the idealized one. The value:
  what each region's write-backs leave in its output array is one whole-array function of the arrays the region
  found (its blocks tile the array); composing the two gives the reference's stages.
-/
import proofs.«129614_j39204461478656_1_alg».proof.Defs
import proofs.«129614_j39204461478656_1_alg».proof.Proof.Gen.Kernel
import proofs.«129614_j39204461478656_1_alg».proof.Proof.Gen.KernelIdeal
import proofs.«129614_j39204461478656_1_alg».proof.Proof.Gen.ReferenceIdeal
import proofs.«129614_j39204461478656_1_alg».proof.Proof.Gen.Pre_finite_inputs
import proofs.«129614_j39204461478656_1_alg».proof.Proof.KernelRun
import proofs.«129614_j39204461478656_1_alg».proof.Proof.KernelIdealRun
import proofs.«129614_j39204461478656_1_alg».proof.Proof.RefStages
import proofs.«129614_j39204461478656_1_alg».proof.Proof.NormValue
import proofs.«129614_j39204461478656_1_alg».proof.Proof.CosValue

noncomputable section

/-! ## The claims -/

namespace Cert.Proof

open Idealize.ShloMosaic Idealize.SL.Sem
open Cert.ReferenceIdeal.Read Cert.ReferenceIdeal.RefStages

/-- The word-level kernel runs to the end and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the exact values both programs end with the thresholded inner products of the normalised rows of `x · w`:
    the kernel's second region leaves `cosSpec` of the array it read, which is what the first region left, the
    reference's normalised rows; the reference's last stage is `cosSpec` of the same rows. -/
theorem algebraic : Cert.algebraic_KernelIdeal_ReferenceIdeal := by
  intro m ρ m' ρ' _ hagree
  refine ⟨fun c => cosSpec (val_main_v9 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩)
      (Cert.KernelIdeal.Hand.run_result (F := Ideal) m ρ)
    refine (Cert.KernelIdeal.CosValue.cosFinal (Cert.KernelIdeal.Hand.V1 m) c).trans ?_
    rw [Cert.KernelIdeal.Hand.V1_main_v0 m c]
    exact congrArg cosSpec (Cert.KernelIdeal.NormValue.normFinal (Cert.KernelIdeal.Hand.V0 m) c)
  · refine (θ_run Cert.ReferenceIdeal.defs _ _).mono (fun _ h c => ⟨(h c).1.trans ?_, (h c).2⟩)
      (Cert.ReferenceIdeal.Value.run (F := Ideal) m' ρ')
    rw [val_main_v13_eq, result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
